-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S50000x1 : Shape := ⟨2, ![50000, 1]⟩
abbrev S1600000x16 : Shape := ⟨2, ![1600000, 16]⟩
abbrev S80x64 : Shape := ⟨2, ![80, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S2x1600000 : Shape := ⟨2, ![2, 1600000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S1600000x16 : S_.BroadcastsInDim S1600000x16 (![] : Fin 0 → Fin S1600000x16.rank)
  reducesTo_S1600000x16_S_d0_1 : S1600000x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg11 : IVec S2x1600000 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 0#32
  let main_v54 : IVec S2x1600000 32 := broadcastInDim S2x1600000 ![] bcast_S_S2x1600000 main_c_20
  let main_v55 : IVec S2x1600000 1 := cmpi .sge main_arg11 main_v54
  let main_c_21 : IVec S_ 32 := constantI S_ 32 50000#32
  let main_v56 : IVec S2x1600000 32 := broadcastInDim S2x1600000 ![] bcast_S_S2x1600000 main_c_21
  let main_v57 : IVec S2x1600000 1 := cmpi .slt main_arg11 main_v56
  let main_v58 : IVec S2x1600000 1 := andi main_v55 main_v57
  let main_c_22 : IVec S_ 1 := constantI S_ 1 1#1
  let main_v59 : IVec S_ 1 := (fun x v => Host.reduce IntOp.andi x v reducesTo_S2x1600000_S_d0_1 h_S_) main_v58 main_c_22
  let main_v60 : IVec S_ 1 := andi main_v53 main_v59
  main_v60

def fn_part2 {F : FTy → Type} [FloatOps F] (main_arg7 : FVec F S64x64 .f32) (main_arg8 : FVec F S64 .f32) (main_arg9 : FVec F S64x32 .f32) (main_arg10 : FVec F S32 .f32) (main_arg11 : IVec S2x1600000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_v48 main_v49 main_v50

def fn_part1 {F : FTy → Type} [FloatOps F] (main_arg4 : FVec F S64 .f32) (main_arg5 : FVec F S64x32 .f32) (main_arg6 : FVec F S32 .f32) (main_arg7 : FVec F S64x64 .f32) (main_arg8 : FVec F S64 .f32) (main_arg9 : FVec F S64x32 .f32) (main_arg10 : FVec F S32 .f32) (main_arg11 : IVec S2x1600000 32) (main_v13 : IVec S_ 1) (main_v16 : IVec S80x64 1) : IVec S_ 1 :=
  let main_c_5 : IVec S_ 1 := constantI S_ 1 1#1
  let main_v17 : IVec S_ 1 := (fun x v => Host.reduce IntOp.andi x v reducesTo_S80x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x32 .f32) (main_arg1 : FVec F S50000x1 .f32) (main_arg2 : FVec F S1600000x16 .f32) (main_arg3 : FVec F S80x64 .f32) (main_arg4 : FVec F S64 .f32) (main_arg5 : FVec F S64x32 .f32) (main_arg6 : FVec F S32 .f32) (main_arg7 : FVec F S64x64 .f32) (main_arg8 : FVec F S64 .f32) (main_arg9 : FVec F S64x32 .f32) (main_arg10 : FVec F S32 .f32) (main_arg11 : IVec S2x1600000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S1600000x16 .f32 := Host.absf main_arg2
  let main_cst_2 : FVec F S_ .f32 := constant S_ .f32 0x7F800000#32
  let main_v10 : FVec F S1600000x16 .f32 := broadcastInDim S1600000x16 ![] bcast_S_S1600000x16 main_cst_2
  let main_v11 : IVec S1600000x16 1 := cmpf .olt main_v9 main_v10
  let main_c_3 : IVec S_ 1 := constantI S_ 1 1#1
  let main_v12 : IVec S_ 1 := (fun x v => Host.reduce IntOp.andi x v reducesTo_S1600000x16_S_d0_1 h_S_) main_v11 main_c_3
  let main_v13 : IVec S_ 1 := andi main_v8 main_v12
  let main_v14 : FVec F S80x64 .f32 := Host.absf main_arg3
  let main_cst_4 : FVec F S_ .f32 := constant S_ .f32 0x7F800000#32
  let main_v15 : FVec F S80x64 .f32 := broadcastInDim S80x64 ![] bcast_S_S80x64 main_cst_4
  let main_v16 : IVec S80x64 1 := cmpf .olt main_v14 main_v15
  fn_part1 (F := F) main_arg4 main_arg5 main_arg6 main_arg7 main_arg8 main_arg9 main_arg10 main_arg11 main_v13 main_v16
-- ==== Kernel.lean ====
abbrev S50000x32 : Shape := ⟨2, ![50000, 32]⟩
abbrev S50000x1 : Shape := ⟨2, ![50000, 1]⟩
abbrev S1600000x16 : Shape := ⟨2, ![1600000, 16]⟩
abbrev S80x64 : Shape := ⟨2, ![80, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x32 : Shape := ⟨2, ![1600000, 32]⟩
abbrev S32x64 : Shape := ⟨2, ![32, 64]⟩
abbrev S16x64 : Shape := ⟨2, ![16, 64]⟩
abbrev S1x64 : Shape := ⟨2, ![1, 64]⟩
abbrev S1x32 : Shape := ⟨2, ![1, 32]⟩
abbrev S12800x32 : Shape := ⟨2, ![12800, 32]⟩
abbrev S12800x16 : Shape := ⟨2, ![12800, 16]⟩
abbrev S12800x64 : Shape := ⟨2, ![12800, 64]⟩
abbrev S10000x32 : Shape := ⟨2, ![10000, 32]⟩
abbrev S10000x64 : Shape := ⟨2, ![10000, 64]⟩

abbrev nBuf : Space → Nat
  | .hbm => 77
  | .vmem => 25
  | .smem => 0
  | _ => 0

abbrev bufTy : (tb : Table) → Fin (tcTables nBuf tb) → BufTy
  | .hbm, ⟨0, _⟩ => ⟨S50000x32, .f32⟩
  | .hbm, ⟨1, _⟩ => ⟨S50000x1, .f32⟩
  | .hbm, ⟨2, _⟩ => ⟨S1600000x16, .f32⟩
  | .hbm, ⟨3, _⟩ => ⟨S80x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S2x1600000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x32, .f32⟩
  | .hbm, ⟨35, _⟩ => ⟨S1600000x32, .i1⟩
  | .hbm, ⟨36, _⟩ => ⟨S_, .f32⟩
  | .hbm, ⟨37, _⟩ => ⟨S1600000x32, .f32⟩
  | .hbm, ⟨38, _⟩ => ⟨S1600000x32, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1, .i32⟩
  | .hbm, ⟨48, _⟩ => ⟨S_, .i32⟩
  | .hbm, ⟨49, _⟩ => ⟨S1600000x1, .i32⟩
  | .hbm, ⟨50, _⟩ => ⟨S1600000x1, .i1⟩
  | .hbm, ⟨51, _⟩ => ⟨S1x1, .i32⟩
  | .hbm, ⟨52, _⟩ => ⟨S1600000x1, .i32⟩
  | .hbm, ⟨53, _⟩ => ⟨S1600000x1, .i1⟩
  | .hbm, ⟨54, _⟩ => ⟨S1600000x1, .i1⟩
  | .hbm, ⟨55, _⟩ => ⟨S_, .i1⟩
  | .hbm, ⟨56, _⟩ => ⟨S1600000, .i1⟩
  | .hbm, ⟨57, _⟩ => ⟨S1600000x32, .f32⟩
  | .hbm, ⟨58, _⟩ => ⟨S1600000x32, .i1⟩
  | .hbm, ⟨59, _⟩ => ⟨S_, .f32⟩
  | .hbm, ⟨60, _⟩ => ⟨S1600000x32, .f32⟩
  | .hbm, ⟨61, _⟩ => ⟨S1600000x32, .f32⟩
  | .hbm, ⟨62, _⟩ => ⟨S32x64, .f32⟩
  | .hbm, ⟨63, _⟩ => ⟨S32x64, .f32⟩
  | .hbm, ⟨64, _⟩ => ⟨S16x64, .f32⟩
  | .hbm, ⟨65, _⟩ => ⟨S1x64, .f32⟩
  | .hbm, ⟨66, _⟩ => ⟨S1x32, .f32⟩
  | .hbm, ⟨67, _⟩ => ⟨S1600000x32, .f32⟩
  | .hbm, ⟨68, _⟩ => ⟨S_, .f32⟩
  | .hbm, ⟨69, _⟩ => ⟨S50000x32, .f32⟩
  | .hbm, ⟨70, _⟩ => ⟨S1600000x1, .i32⟩
  | .hbm, ⟨71, _⟩ => ⟨S50000x32, .f32⟩
  | .hbm, ⟨72, _⟩ => ⟨S32x64, .f32⟩
  | .hbm, ⟨73, _⟩ => ⟨S32x64, .f32⟩
  | .hbm, ⟨74, _⟩ => ⟨S1x64, .f32⟩
  | .hbm, ⟨75, _⟩ => ⟨S1x32, .f32⟩
  | .hbm, ⟨76, _⟩ => ⟨S50000x32, .f32⟩
  | .local _ .vmem, ⟨0, _⟩ => ⟨S12800x32, .f32⟩
  | .local _ .vmem, ⟨1, _⟩ => ⟨S12800x32, .f32⟩
  | .local _ .vmem, ⟨2, _⟩ => ⟨S12800x32, .f32⟩
  | .local _ .vmem, ⟨3, _⟩ => ⟨S12800x32, .f32⟩
  | .local _ .vmem, ⟨4, _⟩ => ⟨S12800x16, .f32⟩
  | .local _ .vmem, ⟨5, _⟩ => ⟨S12800x16, .f32⟩
  | .local _ .vmem, ⟨6, _⟩ => ⟨S32x64, .f32⟩
  | .local _ .vmem, ⟨7, _⟩ => ⟨S32x64, .f32⟩
  | .local _ .vmem, ⟨8, _⟩ => ⟨S16x64, .f32⟩
  | .local _ .vmem, ⟨9, _⟩ => ⟨S1x64, .f32⟩
  | .local _ .vmem, ⟨10, _⟩ => ⟨S64x32, .f32⟩
  | .local _ .vmem, ⟨11, _⟩ => ⟨S1x32, .f32⟩
  | .local _ .vmem, ⟨12, _⟩ => ⟨S12800x32, .f32⟩
  | .local _ .vmem, ⟨13, _⟩ => ⟨S12800x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x64, .f32⟩
  | .local _ .vmem, ⟨19, _⟩ => ⟨S32x64, .f32⟩
  | .local _ .vmem, ⟨20, _⟩ => ⟨S1x64, .f32⟩
  | .local _ .vmem, ⟨21, _⟩ => ⟨S64x32, .f32⟩
  | .local _ .vmem, ⟨22, _⟩ => ⟨S1x32, .f32⟩
  | .local _ .vmem, ⟨23, _⟩ => ⟨S10000x32, .f32⟩
  | .local _ .vmem, ⟨24, _⟩ => ⟨S10000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S12800x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  slices_S80x64_S32x64_0_0 : S80x64.Slices ![0, 0] S32x64
  slices_S80x64_S32x64_32_0 : S80x64.Slices ![32, 0] S32x64
  slices_S80x64_S16x64_64_0 : S80x64.Slices ![64, 0] S16x64
  shapeCasts_S64_S1x64 : S64.ShapeCasts S1x64
  shapeCasts_S32_S1x32 : S32.ShapeCasts S1x32
  inb_S12800x32_S12800x32_0_0 : ∀ a, (![0, 0] : Fin 2 → Nat) a + S12800x32.size a ≤ S12800x32.size a
  h_S12800x32 : 0 < S12800x32.numel
  shapeCasts_S12800x32_S12800x32 : S12800x32.ShapeCasts S12800x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S12800x16_S12800x16_0_0 : ∀ a, (![0, 0] : Fin 2 → Nat) a + S12800x16.size a ≤ S12800x16.size a
  h_S12800x16 : 0 < S12800x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S12800x32 : S1x32.Broadcasts S12800x32
  bcast_S_S50000x32 : S_.BroadcastsInDim S50000x32 (![] : Fin 0 → Fin S50000x32.rank)
  slices_S64x64_S32x64_0_0 : S64x64.Slices ![0, 0] S32x64
  slices_S64x64_S32x64_32_0 : S64x64.Slices ![32, 0] S32x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S1x64_S10000x64 : S1x64.Broadcasts S10000x64
  broadcasts_S1x32_S10000x32 : S1x32.Broadcasts S10000x32
  gather_S50000x32_S1600000x1_S1600000x32_1_0_n_n_0_1_132_wf : GatherDims.WF S50000x32 S1600000x1 S1600000x32 [1] [0] [] [0] [] 1 ![1, 32]
  dot_S12800x32_S32x64_S12800x64_1_0_0_1_n_n_wf : DotDims.WF S12800x32 S32x64 S12800x64 [1] [0] [0] [1] [] []
  dot_S12800x16_S16x64_S12800x64_1_0_0_1_n_n_wf : DotDims.WF S12800x16 S16x64 S12800x64 [1] [0] [0] [1] [] []
  dot_S12800x64_S64x32_S12800x32_1_0_0_1_n_n_wf : DotDims.WF S12800x64 S64x32 S12800x32 [1] [0] [0] [1] [] []
  scatter_S50000x32_S1600000x1_S1600000x32_1_0_0_1_wf : ScatterDims.WF S50000x32 S1600000x1 S1600000x32 [1] [0] [0] 1
  dot_S10000x32_S32x64_S10000x64_1_0_0_1_n_n_wf : DotDims.WF S10000x32 S32x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x32.size a ≤ S1600000x32.size a
  hwx0_0 : ∀ i : grid0.Coords, EltTy.bits .f32 = 32 ∨ (Rect.block (s := S1600000x32) S12800x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x32.size a ≤ S1600000x32.size a
  hwx0_1 : ∀ i : grid0.Coords, EltTy.bits .f32 = 32 ∨ (Rect.block (s := S1600000x32) S12800x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x16.size a ≤ S1600000x16.size a
  hwx0_2 : ∀ i : grid0.Coords, EltTy.bits .f32 = 32 ∨ (Rect.block (s := S1600000x16) S12800x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S12800x32.size a ≤ S1600000x32.size a
  hwx0_9 : ∀ i : grid0.Coords, EltTy.bits .f32 = 32 ∨ (Rect.block (s := S1600000x32) S12800x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S50000x32.size a
  hwx1_1 : ∀ i : grid1.Coords, EltTy.bits .f32 = 32 ∨ (Rect.block (s := S50000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S50000x32.size a
  hwx1_7 : ∀ i : grid1.Coords, EltTy.bits .f32 = 32 ∨ (Rect.block (s := S50000x32) S10000x32.size (cc1_transform_7 i) (hinb1_7 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S12800x32_S32x64_S12800x64_1_0_0_1_n_n : DotDims S12800x32 S32x64 S12800x64 where
  lhsContracting := [1]
  rhsContracting := [0]
  lhsNonContracting := [0]
  rhsNonContracting := [1]
  lhsBatch := []
  rhsBatch := []
  wf := dot_S12800x32_S32x64_S12800x64_1_0_0_1_n_n_wf
def dot_S12800x16_S16x64_S12800x64_1_0_0_1_n_n : DotDims S12800x16 S16x64 S12800x64 where
  lhsContracting := [1]
  rhsContracting := [0]
  lhsNonContracting := [0]
  rhsNonContracting := [1]
  lhsBatch := []
  rhsBatch := []
  wf := dot_S12800x16_S16x64_S12800x64_1_0_0_1_n_n_wf
def dot_S12800x64_S64x32_S12800x32_1_0_0_1_n_n : DotDims S12800x64 S64x32 S12800x32 where
  lhsContracting := [1]
  rhsContracting := [0]
  lhsNonContracting := [0]
  rhsNonContracting := [1]
  lhsBatch := []
  rhsBatch := []
  wf := dot_S12800x64_S64x32_S12800x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v4) S12800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S12800x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12800x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S12800x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x32 : Shape := ⟨2, ![50000, 32]⟩
abbrev S50000x1 : Shape := ⟨2, ![50000, 1]⟩
abbrev S1600000x16 : Shape := ⟨2, ![1600000, 16]⟩
abbrev S80x64 : Shape := ⟨2, ![80, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1600000x80 : Shape := ⟨2, ![1600000, 80]⟩
abbrev S1600000x64 : Shape := ⟨2, ![1600000, 64]⟩
abbrev S1x64 : Shape := ⟨2, ![1, 64]⟩
abbrev S1x32 : Shape := ⟨2, ![1, 32]⟩
abbrev S50000x64 : Shape := ⟨2, ![50000, 64]⟩

abbrev nBuf : Space → Nat
  | .hbm => 62
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S50000x1, .f32⟩
  | .hbm, ⟨2, _⟩ => ⟨S1600000x16, .f32⟩
  | .hbm, ⟨3, _⟩ => ⟨S80x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S2x1600000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x32, .f32⟩
  | .hbm, ⟨34, _⟩ => ⟨S1600000x80, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S1600000x32, .f32⟩
  | .hbm, ⟨43, _⟩ => ⟨S1x32, .f32⟩
  | .hbm, ⟨44, _⟩ => ⟨S1600000x32, .f32⟩
  | .hbm, ⟨45, _⟩ => ⟨S1600000x32, .f32⟩
  | .hbm, ⟨46, _⟩ => ⟨S_, .f32⟩
  | .hbm, ⟨47, _⟩ => ⟨S50000x32, .f32⟩
  | .hbm, ⟨48, _⟩ => ⟨S1600000x1, .i32⟩
  | .hbm, ⟨49, _⟩ => ⟨S50000x32, .f32⟩
  | .hbm, ⟨50, _⟩ => ⟨S50000x64, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x32, .f32⟩
  | .hbm, ⟨59, _⟩ => ⟨S1x32, .f32⟩
  | .hbm, ⟨60, _⟩ => ⟨S50000x32, .f32⟩
  | .hbm, ⟨61, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x16_S1600000x80_d1 : Shape.Concatenates [S1600000x32, S1600000x32, S1600000x16] S1600000x80 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S50000x32 : S_.BroadcastsInDim S50000x32 (![] : Fin 0 → Fin S50000x32.rank)
  concatenates_S50000x32_S50000x32_S50000x64_d1 : Shape.Concatenates [S50000x32, S50000x32] S50000x64 1
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x32_S50000x32_0_1 : S1x32.BroadcastsInDim S50000x32 (![0, 1] : Fin 2 → Fin S50000x32.rank)
  gather_S50000x32_S1600000x1_S1600000x32_1_0_n_n_0_1_132_wf : GatherDims.WF S50000x32 S1600000x1 S1600000x32 [1] [0] [] [0] [] 1 ![1, 32]
  dot_S1600000x80_S80x64_S1600000x64_1_0_0_1_n_n_wf : DotDims.WF S1600000x80 S80x64 S1600000x64 [1] [0] [0] [1] [] []
  dot_S1600000x64_S64x32_S1600000x32_1_0_0_1_n_n_wf : DotDims.WF S1600000x64 S64x32 S1600000x32 [1] [0] [0] [1] [] []
  scatter_S50000x32_S1600000x1_S1600000x32_1_0_0_1_wf : ScatterDims.WF S50000x32 S1600000x1 S1600000x32 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x80_S80x64_S1600000x64_1_0_0_1_n_n : DotDims S1600000x80 S80x64 S1600000x64 where
  lhsContracting := [1]
  rhsContracting := [0]
  lhsNonContracting := [0]
  rhsNonContracting := [1]
  lhsBatch := []
  rhsBatch := []
  wf := dot_S1600000x80_S80x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelValue.lean ====
/-
  What the idealized kernel's buffers hold where its two grids start, and what its result is.

  Between the launch and the first grid the host slices the edge list into its two rows, gathers the rows of the node
  features they name, cuts the first-layer matrix of the message network into three blocks of rows and reads each
  bias as a one-row matrix; between the grids it sums the messages into their target nodes and prepares the update
  network's operands the same way. No host operation and no grid writes an argument array, so each of these values
  is a plain function of the launch memory.
-/
import proofs.«427838_j63780264346297_4_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A stretch of host operations leaves a buffer it does not write as it found it. -/
local macro "unwritten " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Argument arrays at the boundaries -/

/-- Before the weight slices, the message network's first-layer matrix is as launched. -/
theorem W3_arg3 : W3 m ρ c (Proc.devRef .tc main_arg3) = m ((c : Thread nD τ).loc main_arg3) :=
  calc W3 m ρ c (Proc.devRef .tc main_arg3)
    _ = W2 m ρ c (Proc.devRef .tc main_arg3) := unwritten hostOps0_2
    _ = W1 m ρ c (Proc.devRef .tc main_arg3) := unwritten hostOps0_1
    _ = W0 m ρ c (Proc.devRef .tc main_arg3) := unwritten hostOps0
    _ = m ((c : Thread nD τ).loc main_arg3) := rfl

/-- Before the weight slices, the message network's first bias is as launched. -/
theorem W3_arg4 : W3 m ρ c (Proc.devRef .tc main_arg4) = m ((c : Thread nD τ).loc main_arg4) :=
  calc W3 m ρ c (Proc.devRef .tc main_arg4)
    _ = W2 m ρ c (Proc.devRef .tc main_arg4) := unwritten hostOps0_2
    _ = W1 m ρ c (Proc.devRef .tc main_arg4) := unwritten hostOps0_1
    _ = W0 m ρ c (Proc.devRef .tc main_arg4) := unwritten hostOps0
    _ = m ((c : Thread nD τ).loc main_arg4) := rfl

/-- Before the weight slices, the message network's second bias is as launched. -/
theorem W3_arg6 : W3 m ρ c (Proc.devRef .tc main_arg6) = m ((c : Thread nD τ).loc main_arg6) :=
  calc W3 m ρ c (Proc.devRef .tc main_arg6)
    _ = W2 m ρ c (Proc.devRef .tc main_arg6) := unwritten hostOps0_2
    _ = W1 m ρ c (Proc.devRef .tc main_arg6) := unwritten hostOps0_1
    _ = W0 m ρ c (Proc.devRef .tc main_arg6) := unwritten hostOps0
    _ = m ((c : Thread nD τ).loc main_arg6) := rfl

/-- Where the first grid starts, the node features are as launched. -/
theorem W4_arg0 : W4 m ρ c (Proc.devRef .tc main_arg0) = m ((c : Thread nD τ).loc main_arg0) :=
  calc W4 m ρ c (Proc.devRef .tc main_arg0)
    _ = W3 m ρ c (Proc.devRef .tc main_arg0) := unwritten hostOps0_3
    _ = W2 m ρ c (Proc.devRef .tc main_arg0) := unwritten hostOps0_2
    _ = W1 m ρ c (Proc.devRef .tc main_arg0) := unwritten hostOps0_1
    _ = W0 m ρ c (Proc.devRef .tc main_arg0) := unwritten hostOps0
    _ = m ((c : Thread nD τ).loc main_arg0) := rfl

/-- Where the first grid starts, the edge features are as launched. -/
theorem W4_arg2 : W4 m ρ c (Proc.devRef .tc main_arg2) = m ((c : Thread nD τ).loc main_arg2) :=
  calc W4 m ρ c (Proc.devRef .tc main_arg2)
    _ = W3 m ρ c (Proc.devRef .tc main_arg2) := unwritten hostOps0_3
    _ = W2 m ρ c (Proc.devRef .tc main_arg2) := unwritten hostOps0_2
    _ = W1 m ρ c (Proc.devRef .tc main_arg2) := unwritten hostOps0_1
    _ = W0 m ρ c (Proc.devRef .tc main_arg2) := unwritten hostOps0
    _ = m ((c : Thread nD τ).loc main_arg2) := rfl

/-- Where the first grid starts, the message network's second-layer matrix are as launched. -/
theorem W4_arg5 : W4 m ρ c (Proc.devRef .tc main_arg5) = m ((c : Thread nD τ).loc main_arg5) :=
  calc W4 m ρ c (Proc.devRef .tc main_arg5)
    _ = W3 m ρ c (Proc.devRef .tc main_arg5) := unwritten hostOps0_3
    _ = W2 m ρ c (Proc.devRef .tc main_arg5) := unwritten hostOps0_2
    _ = W1 m ρ c (Proc.devRef .tc main_arg5) := unwritten hostOps0_1
    _ = W0 m ρ c (Proc.devRef .tc main_arg5) := unwritten hostOps0
    _ = m ((c : Thread nD τ).loc main_arg5) := rfl

/-- Where the first grid starts, the update network's first-layer matrix are as launched. -/
theorem W4_arg7 : W4 m ρ c (Proc.devRef .tc main_arg7) = m ((c : Thread nD τ).loc main_arg7) :=
  calc W4 m ρ c (Proc.devRef .tc main_arg7)
    _ = W3 m ρ c (Proc.devRef .tc main_arg7) := unwritten hostOps0_3
    _ = W2 m ρ c (Proc.devRef .tc main_arg7) := unwritten hostOps0_2
    _ = W1 m ρ c (Proc.devRef .tc main_arg7) := unwritten hostOps0_1
    _ = W0 m ρ c (Proc.devRef .tc main_arg7) := unwritten hostOps0
    _ = m ((c : Thread nD τ).loc main_arg7) := rfl

/-- Where the first grid starts, the update network's first bias are as launched. -/
theorem W4_arg8 : W4 m ρ c (Proc.devRef .tc main_arg8) = m ((c : Thread nD τ).loc main_arg8) :=
  calc W4 m ρ c (Proc.devRef .tc main_arg8)
    _ = W3 m ρ c (Proc.devRef .tc main_arg8) := unwritten hostOps0_3
    _ = W2 m ρ c (Proc.devRef .tc main_arg8) := unwritten hostOps0_2
    _ = W1 m ρ c (Proc.devRef .tc main_arg8) := unwritten hostOps0_1
    _ = W0 m ρ c (Proc.devRef .tc main_arg8) := unwritten hostOps0
    _ = m ((c : Thread nD τ).loc main_arg8) := rfl

/-- Where the first grid starts, the update network's second-layer matrix are as launched. -/
theorem W4_arg9 : W4 m ρ c (Proc.devRef .tc main_arg9) = m ((c : Thread nD τ).loc main_arg9) :=
  calc W4 m ρ c (Proc.devRef .tc main_arg9)
    _ = W3 m ρ c (Proc.devRef .tc main_arg9) := unwritten hostOps0_3
    _ = W2 m ρ c (Proc.devRef .tc main_arg9) := unwritten hostOps0_2
    _ = W1 m ρ c (Proc.devRef .tc main_arg9) := unwritten hostOps0_1
    _ = W0 m ρ c (Proc.devRef .tc main_arg9) := unwritten hostOps0
    _ = m ((c : Thread nD τ).loc main_arg9) := rfl

/-- Where the first grid starts, the update network's second bias are as launched. -/
theorem W4_arg10 : W4 m ρ c (Proc.devRef .tc main_arg10) = m ((c : Thread nD τ).loc main_arg10) :=
  calc W4 m ρ c (Proc.devRef .tc main_arg10)
    _ = W3 m ρ c (Proc.devRef .tc main_arg10) := unwritten hostOps0_3
    _ = W2 m ρ c (Proc.devRef .tc main_arg10) := unwritten hostOps0_2
    _ = W1 m ρ c (Proc.devRef .tc main_arg10) := unwritten hostOps0_1
    _ = W0 m ρ c (Proc.devRef .tc main_arg10) := unwritten hostOps0
    _ = m ((c : Thread nD τ).loc main_arg10) := rfl

/-! ## The edge list's target row -/

/-- After the first stretch the target row of the edge list is its slice, read as a vector. -/
theorem W1_v3 : W1 m ρ c (Proc.devRef .tc main_v3)
    = (shapeCast S1600000 (extractStridedSlice S1x1600000 ![1, 0] (m ((c : Thread nD τ).loc main_arg11)) slices_S2x1600000_S1x1600000_1_0) shapeCasts_S1x1600000_S1600000) := by
  show StableHlo.after hostOps0 (W0 m ρ c) (Proc.devRef .tc main_v3) = _
  after_results
  rfl

/-- Nothing later writes it: where the first grid ends it is still that. -/
theorem W5_v3 : W5 m ρ c (Proc.devRef .tc main_v3)
    = (shapeCast S1600000 (extractStridedSlice S1x1600000 ![1, 0] (m ((c : Thread nD τ).loc main_arg11)) slices_S2x1600000_S1x1600000_1_0) shapeCasts_S1x1600000_S1600000) :=
  calc W5 m ρ c (Proc.devRef .tc main_v3)
    _ = W4 m ρ c (Proc.devRef .tc main_v3) := W5_of_ne m ρ c main_v3 (by decide)
    _ = W3 m ρ c (Proc.devRef .tc main_v3) := unwritten hostOps0_3
    _ = W2 m ρ c (Proc.devRef .tc main_v3) := unwritten hostOps0_2
    _ = W1 m ρ c (Proc.devRef .tc main_v3) := unwritten hostOps0_1
    _ = _ := W1_v3 m ρ c

/-! ## The first grid's weight and bias operands -/

/-- The rows of the first-layer matrix that meet the target node's features. -/
theorem V4_v6 : V4 m ρ c main_v6
    = extractStridedSlice S32x64 ![0, 0] (m ((c : Thread nD τ).loc main_arg3)) slices_S80x64_S32x64_0_0 := by
  show StableHlo.after hostOps0_3 (W3 m ρ c) (Proc.devRef .tc main_v6) = _
  after_results

/-- The rows that meet the source node's features. -/
theorem V4_v7 : V4 m ρ c main_v7
    = extractStridedSlice S32x64 ![32, 0] (m ((c : Thread nD τ).loc main_arg3)) slices_S80x64_S32x64_32_0 := by
  show StableHlo.after hostOps0_3 (W3 m ρ c) (Proc.devRef .tc main_v7) = _
  after_results

/-- The rows that meet the edge's features. -/
theorem V4_v8 : V4 m ρ c main_v8
    = extractStridedSlice S16x64 ![64, 0] (m ((c : Thread nD τ).loc main_arg3)) slices_S80x64_S16x64_64_0 := by
  show StableHlo.after hostOps0_3 (W3 m ρ c) (Proc.devRef .tc main_v8) = _
  after_results

/-- The first bias as a one-row matrix. -/
theorem V4_v9 : V4 m ρ c main_v9 = shapeCast S1x64 (m ((c : Thread nD τ).loc main_arg4)) shapeCasts_S64_S1x64 := by
  show StableHlo.after hostOps0_3 (W3 m ρ c) (Proc.devRef .tc main_v9) = _
  after_results
  rfl

/-- The second bias as a one-row matrix. -/
theorem V4_v10 : V4 m ρ c main_v10 = shapeCast S1x32 (m ((c : Thread nD τ).loc main_arg6)) shapeCasts_S32_S1x32 := by
  show StableHlo.after hostOps0_3 (W3 m ρ c) (Proc.devRef .tc main_v10) = _
  after_results
  rfl

/-- The edge features, as the first grid finds them. -/
theorem V4_arg2 : V4 m ρ c main_arg2 = m ((c : Thread nD τ).loc main_arg2) := W4_arg2 m ρ c

/-- The second-layer matrix, as the first grid finds it. -/
theorem V4_arg5 : V4 m ρ c main_arg5 = m ((c : Thread nD τ).loc main_arg5) := W4_arg5 m ρ c

/-! ## The second grid's operands -/

theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W5_arg10 : W5 m ρ c (Proc.devRef .tc main_arg10) = m ((c : Thread nD τ).loc main_arg10) :=
  (W5_of_ne m ρ c main_arg10 (by decide)).trans (W4_arg10 m ρ c)

/-- The node features, where the second grid starts. -/
theorem V6_arg0 : V6 m ρ c main_arg0 = m ((c : Thread nD τ).loc main_arg0) :=
  calc W6 m ρ c (Proc.devRef .tc main_arg0)
    _ = W5 m ρ c (Proc.devRef .tc main_arg0) := unwritten hostOps1
    _ = W4 m ρ c (Proc.devRef .tc main_arg0) := W5_of_ne m ρ c main_arg0 (by decide)
    _ = _ := W4_arg0 m ρ c

/-- The second-layer matrix, where the second grid starts. -/
theorem V6_arg9 : V6 m ρ c main_arg9 = m ((c : Thread nD τ).loc main_arg9) :=
  calc W6 m ρ c (Proc.devRef .tc main_arg9)
    _ = W5 m ρ c (Proc.devRef .tc main_arg9) := unwritten hostOps1
    _ = W4 m ρ c (Proc.devRef .tc main_arg9) := W5_of_ne m ρ c main_arg9 (by decide)
    _ = _ := W4_arg9 m ρ c

/-- The rows of the first-layer matrix that meet a node's own features. -/
theorem V6_v15 : V6 m ρ c main_v15
    = extractStridedSlice S32x64 ![0, 0] (m ((c : Thread nD τ).loc main_arg7)) slices_S64x64_S32x64_0_0 := by
  show StableHlo.after hostOps1 (W5 m ρ c) (Proc.devRef .tc main_v15) = _
  after_results
  rw [W5_arg7 m ρ c]

/-- The rows that meet its aggregated messages. -/
theorem V6_v16 : V6 m ρ c main_v16
    = extractStridedSlice S32x64 ![32, 0] (m ((c : Thread nD τ).loc main_arg7)) slices_S64x64_S32x64_32_0 := by
  show StableHlo.after hostOps1 (W5 m ρ c) (Proc.devRef .tc main_v16) = _
  after_results
  rw [W5_arg7 m ρ c]

/-- The first bias as a one-row matrix. -/
theorem V6_v17 : V6 m ρ c main_v17 = shapeCast S1x64 (m ((c : Thread nD τ).loc main_arg8)) shapeCasts_S64_S1x64 := by
  show StableHlo.after hostOps1 (W5 m ρ c) (Proc.devRef .tc main_v17) = _
  after_results
  rw [W5_arg8 m ρ c]
  rfl

/-- The second bias as a one-row matrix. -/
theorem V6_v18 : V6 m ρ c main_v18 = shapeCast S1x32 (m ((c : Thread nD τ).loc main_arg10)) shapeCasts_S32_S1x32 := by
  show StableHlo.after hostOps1 (W5 m ρ c) (Proc.devRef .tc main_v18) = _
  after_results
  rw [W5_arg10 m ρ c]
  rfl

/-- The aggregated messages: the first grid's output array, summed into zeros at the edges' target nodes. -/
theorem V6_v14 : V6 m ρ c main_v14
    = Host.scatterAdd scatter_S50000x32_S1600000x1_S1600000x32_1_0_0_1
        (broadcastInDim S50000x32 ![] bcast_S_S50000x32 (constant S_ .f32 0x00000000#32))
        (broadcastInDim S1600000x1 ![0] bcast_S1600000_S1600000x1_0
          (shapeCast S1600000 (extractStridedSlice S1x1600000 ![1, 0] (m ((c : Thread nD τ).loc main_arg11)) slices_S2x1600000_S1x1600000_1_0) shapeCasts_S1x1600000_S1600000))
        ((dat0 (V4 m ρ) c).arrAt 9 cfg0.N) := by
  show StableHlo.after hostOps1 (W5 m ρ c) (Proc.devRef .tc main_v14) = _
  after_results
  rw [W5_v3 m ρ c, show W5 m ρ c (Proc.devRef .tc main_v11) = (dat0 (V4 m ρ) c).arrAt 9 cfg0.N from W5_arr m ρ c 9]

end Cert.KernelIdeal.HostValue

end
-- ==== Proof.Spec.lean ====
/-
  The two small networks of the message-passing layer, as plain functions over the extended reals.

  A message is computed per edge from three rows (the target node's features, the source node's features, the edge's
  features): a hidden layer of 64 units, each the positive part of an affine form of the three rows, followed by an
  affine output layer of 32 units. The affine form of the hidden layer is written as the sum of three partial
  products, one per row, which is how a product with the stacked 80-row weight matrix splits along its rows.
  A node's new features are computed the same way from two rows (its own features and its aggregated messages).

  Everything is stated for an arbitrary number of rows `R`: the value at a row depends on that row of each operand
  only, so the same function describes one block of rows and the whole array.
-/
import Idealize.ShloMosaic.PureOps.Ideal
import Idealize.ShloMosaic.Lib.ValueIdx

noncomputable section

open scoped BigOperators

namespace Cert.Spec

open Idealize.ShloMosaic Idealize.ShloMosaic.ValueIdx

/-- Hidden unit `k` of the message network at row `e`: the positive part of
    (xi·wa + xj·wb + ef·wc)(e, k) + b1(k). -/
def msgHidden (R : Nat) (xi xj : FVec Ideal ⟨2, ![R, 32]⟩ .f32) (ef : FVec Ideal ⟨2, ![R, 16]⟩ .f32)
    (wa wb : FVec Ideal ⟨2, ![32, 64]⟩ .f32) (wc : FVec Ideal ⟨2, ![16, 64]⟩ .f32)
    (b1 : FVec Ideal ⟨2, ![1, 64]⟩ .f32) (e : Fin R) (k : Fin 64) : EReal :=
  max ((((∑ p : Fin 32, xi (ix2 e p) * wa (ix2 p k)) + ∑ p : Fin 32, xj (ix2 e p) * wb (ix2 p k))
      + ∑ p : Fin 16, ef (ix2 e p) * wc (ix2 p k)) + b1 (ix2 0 k)) 0

/-- Output unit `j` of the message network at row `e`. -/
def msgAt (R : Nat) (xi xj : FVec Ideal ⟨2, ![R, 32]⟩ .f32) (ef : FVec Ideal ⟨2, ![R, 16]⟩ .f32)
    (wa wb : FVec Ideal ⟨2, ![32, 64]⟩ .f32) (wc : FVec Ideal ⟨2, ![16, 64]⟩ .f32)
    (b1 : FVec Ideal ⟨2, ![1, 64]⟩ .f32) (w2 : FVec Ideal ⟨2, ![64, 32]⟩ .f32)
    (b2 : FVec Ideal ⟨2, ![1, 32]⟩ .f32) (e : Fin R) (j : Fin 32) : EReal :=
  (∑ k : Fin 64, msgHidden R xi xj ef wa wb wc b1 e k * w2 (ix2 k j)) + b2 (ix2 0 j)

/-- The message network over all rows. -/
def msgOut (R : Nat) (xi xj : FVec Ideal ⟨2, ![R, 32]⟩ .f32) (ef : FVec Ideal ⟨2, ![R, 16]⟩ .f32)
    (wa wb : FVec Ideal ⟨2, ![32, 64]⟩ .f32) (wc : FVec Ideal ⟨2, ![16, 64]⟩ .f32)
    (b1 : FVec Ideal ⟨2, ![1, 64]⟩ .f32) (w2 : FVec Ideal ⟨2, ![64, 32]⟩ .f32)
    (b2 : FVec Ideal ⟨2, ![1, 32]⟩ .f32) : FVec Ideal ⟨2, ![R, 32]⟩ .f32 :=
  fun i => msgAt R xi xj ef wa wb wc b1 w2 b2 (i 0) (i 1)

theorem msgOut_ix2 (R : Nat) (xi xj : FVec Ideal ⟨2, ![R, 32]⟩ .f32) (ef : FVec Ideal ⟨2, ![R, 16]⟩ .f32)
    (wa wb : FVec Ideal ⟨2, ![32, 64]⟩ .f32) (wc : FVec Ideal ⟨2, ![16, 64]⟩ .f32)
    (b1 : FVec Ideal ⟨2, ![1, 64]⟩ .f32) (w2 : FVec Ideal ⟨2, ![64, 32]⟩ .f32)
    (b2 : FVec Ideal ⟨2, ![1, 32]⟩ .f32) (e : Fin R) (j : Fin 32) :
    msgOut R xi xj ef wa wb wc b1 w2 b2 (ix2 e j) = msgAt R xi xj ef wa wb wc b1 w2 b2 e j := rfl

/-- Hidden unit `k` of the update network at row `n`: the positive part of (x·wa + agg·wb)(n, k) + b1(k). -/
def updHidden (R : Nat) (x agg : FVec Ideal ⟨2, ![R, 32]⟩ .f32)
    (wa wb : FVec Ideal ⟨2, ![32, 64]⟩ .f32) (b1 : FVec Ideal ⟨2, ![1, 64]⟩ .f32) (n : Fin R) (k : Fin 64) : EReal :=
  max (((∑ p : Fin 32, x (ix2 n p) * wa (ix2 p k)) + ∑ p : Fin 32, agg (ix2 n p) * wb (ix2 p k))
      + b1 (ix2 0 k)) 0

/-- Output unit `j` of the update network at row `n`. -/
def updAt (R : Nat) (x agg : FVec Ideal ⟨2, ![R, 32]⟩ .f32)
    (wa wb : FVec Ideal ⟨2, ![32, 64]⟩ .f32) (b1 : FVec Ideal ⟨2, ![1, 64]⟩ .f32)
    (w2 : FVec Ideal ⟨2, ![64, 32]⟩ .f32) (b2 : FVec Ideal ⟨2, ![1, 32]⟩ .f32) (n : Fin R) (j : Fin 32) : EReal :=
  (∑ k : Fin 64, updHidden R x agg wa wb b1 n k * w2 (ix2 k j)) + b2 (ix2 0 j)

/-- The update network over all rows. -/
def updOut (R : Nat) (x agg : FVec Ideal ⟨2, ![R, 32]⟩ .f32)
    (wa wb : FVec Ideal ⟨2, ![32, 64]⟩ .f32) (b1 : FVec Ideal ⟨2, ![1, 64]⟩ .f32)
    (w2 : FVec Ideal ⟨2, ![64, 32]⟩ .f32) (b2 : FVec Ideal ⟨2, ![1, 32]⟩ .f32) : FVec Ideal ⟨2, ![R, 32]⟩ .f32 :=
  fun i => updAt R x agg wa wb b1 w2 b2 (i 0) (i 1)

theorem updOut_ix2 (R : Nat) (x agg : FVec Ideal ⟨2, ![R, 32]⟩ .f32)
    (wa wb : FVec Ideal ⟨2, ![32, 64]⟩ .f32) (b1 : FVec Ideal ⟨2, ![1, 64]⟩ .f32)
    (w2 : FVec Ideal ⟨2, ![64, 32]⟩ .f32) (b2 : FVec Ideal ⟨2, ![1, 32]⟩ .f32) (n : Fin R) (j : Fin 32) :
    updOut R x agg wa wb b1 w2 b2 (ix2 n j) = updAt R x agg wa wb b1 w2 b2 n j := rfl

end Cert.Spec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Region0Value.lean ====
/-
  The value of the first call's result array, as one function of the arrays the call finds.

  The call walks 125 points; at point `t` it reads block (t, 0) (12800 rows) of the two gathered feature arrays and of
  the edge features, the six weight and bias arrays whole, and writes block (t, 0) of the result. Three steps:
  the body's arithmetic on one block is the message network on 12800 rows (three partial products added, a bias row
  broadcast, the positive part, a second product, a second bias row); row `r` of block `t` is row `t * 12800 + r` of
  every row-blocked array, and the message at a row depends on that row only, so what point `t` writes back is block
  (t, 0) of the message network on all 1600000 rows; and every row `r` is in the block of point `r / 12800`, so
  after the last point the whole array is that function.
-/
import proofs.«427838_j63780264346297_4_alg».proof.Proof.Gen.KernelIdeal.Frame
import proofs.«427838_j63780264346297_4_alg».proof.Proof.Spec
import proofs.«427838_j63780264346297_4_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-! ## The body's arithmetic on one block of rows -/

/-- The three printed dimension-number records are the plain "rows × contraction by contraction × columns" ones. -/
theorem d1 : dot_S12800x32_S32x64_S12800x64_1_0_0_1_n_n = DotDims.plain 12800 32 64 := rfl
theorem d2 : dot_S12800x16_S16x64_S12800x64_1_0_0_1_n_n = DotDims.plain 12800 16 64 := rfl
theorem d3 : dot_S12800x64_S64x32_S12800x32_1_0_0_1_n_n = DotDims.plain 12800 64 32 := rfl

/-- What the body stores, as a function of the nine blocks it loads, is the message network on 12800 rows: at row
    `p` and output unit `q` the outer product is a sum over the 64 hidden units, each hidden unit the positive part of
    three partial products plus the first bias, read at row `p` of the operands' blocks; the two biases are one row
    broadcast down the rows; the zero the maximum is taken with is the zero word. -/
theorem pay_eq (v0 : Vec Ideal S12800x32 .f32) (v2 : Vec Ideal S32x64 .f32) (v5 : Vec Ideal S12800x32 .f32)
    (v7 : Vec Ideal S32x64 .f32) (v11 : Vec Ideal S12800x16 .f32) (v12 : Vec Ideal S16x64 .f32)
    (v16 : Vec Ideal S1x64 .f32) (v22 : Vec Ideal S64x32 .f32) (v24 : Vec Ideal S1x32 .f32) :
    k0_pay1 (F := Ideal) v0 v2 v5 v7 v11 v12 v16 v22 v24
      = Cert.Spec.msgOut 12800 v0 v5 v11 v2 v7 v12 v16 v22 v24 := by
  funext j
  obtain ⟨p, q, rfl⟩ : ∃ (p : Fin 12800) (q : Fin 32), j = ix2 p q := ⟨j 0, j 1, eq_ix2 j⟩
  rw [Cert.Spec.msgOut_ix2]
  unfold k0_pay1
  simp only [shapeCast_self, matmul]
  rw [addf_apply, d1, d2, d3, broadcastTo_1b_ab_apply, Cert.LibPlainDot.matmul_plain_apply]
  unfold Cert.Spec.msgAt
  congr 1
  refine Finset.sum_congr rfl fun k _ => ?_
  congr 1
  rw [maximumf_apply, addf_apply, addf_apply, addf_apply, broadcastTo_1b_ab_apply, broadcast_apply,
    Cert.LibPlainDot.matmul_plain_apply, Cert.LibPlainDot.matmul_plain_apply, Cert.LibPlainDot.matmul_plain_apply]
  unfold Cert.Spec.msgHidden
  rw [Ideal.ofBits_def, Ideal.ofBits_zero_f32]

/-- The message at a row depends on that row of the three per-edge operands only (and on the weights): two
    families of operands, of any two row counts, that agree on one row of each give the same message there. -/
theorem msgAt_congr {R R' : Nat}
    {xi xj : FVec Ideal ⟨2, ![R, 32]⟩ .f32} {ef : FVec Ideal ⟨2, ![R, 16]⟩ .f32}
    {xi' xj' : FVec Ideal ⟨2, ![R', 32]⟩ .f32} {ef' : FVec Ideal ⟨2, ![R', 16]⟩ .f32}
    {wa wb wa' wb' : FVec Ideal ⟨2, ![32, 64]⟩ .f32} {wc wc' : FVec Ideal ⟨2, ![16, 64]⟩ .f32}
    {b1 b1' : FVec Ideal ⟨2, ![1, 64]⟩ .f32} {w2 w2' : FVec Ideal ⟨2, ![64, 32]⟩ .f32}
    {b2 b2' : FVec Ideal ⟨2, ![1, 32]⟩ .f32}
    {e : Fin R} {e' : Fin R'} {q q' : Fin 32}
    (hxi : ∀ p, xi (ix2 e p) = xi' (ix2 e' p)) (hxj : ∀ p, xj (ix2 e p) = xj' (ix2 e' p))
    (hef : ∀ p, ef (ix2 e p) = ef' (ix2 e' p))
    (hwa : wa = wa') (hwb : wb = wb') (hwc : wc = wc') (hb1 : b1 = b1') (hw2 : w2 = w2') (hb2 : b2 = b2')
    (hq : q = q') :
    Cert.Spec.msgAt R xi xj ef wa wb wc b1 w2 b2 e q
      = Cert.Spec.msgAt R' xi' xj' ef' wa' wb' wc' b1' w2' b2' e' q' := by
  subst hwa hwb hwc hb1 hw2 hb2 hq
  unfold Cert.Spec.msgAt Cert.Spec.msgHidden
  simp only [hxi, hxj, hef]

/-! ## From blocks to the array -/

theorem hz : (![0, 0] : Fin 2 → Nat) = fun _ => 0 := funext fun a => by fin_cases a <;> rfl

/-- The message network over all 1600000 edges, of the arrays as the call finds them. -/
abbrev G (c : Dev nD) : S1600000x32.Idx → EReal :=
  Cert.Spec.msgOut 1600000 (V c main_v4) (V c main_v5) (V c main_arg2) (V c main_v6) (V c main_v7) (V c main_v8) (V c main_v9) (V c main_arg5) (V c main_v10)

/-- The printed index maps of the four row-blocked windows, decided over the grid: point `t` takes block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The printed index maps of the six weight windows, decided over the grid: every point takes block (0, 0). -/
theorem idx_facts_w : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! A weight window's block is its whole array at every point: block (0, 0) of an array of the block's own shape. -/

theorem wblk3 (c : Dev nD) (t : Fin cfg0.N) : iblk0 V c 3 t = V c main_v6 := by
  obtain ⟨e30, e31, e40, e41, e50, e51, e60, e61, e70, e71, e80, e81⟩ := idx_facts_w t
  funext y
  show V c main_v6 (((cfg0.win 3).blk t).view.emb y) = V c main_v6 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 64 + 1 * (y 1).val = (y 1).val; omega

theorem wblk4 (c : Dev nD) (t : Fin cfg0.N) : iblk0 V c 4 t = V c main_v7 := by
  obtain ⟨e30, e31, e40, e41, e50, e51, e60, e61, e70, e71, e80, e81⟩ := idx_facts_w t
  funext y
  show V c main_v7 (((cfg0.win 4).blk t).view.emb y) = V c main_v7 y
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 64 + 1 * (y 1).val = (y 1).val; omega

theorem wblk5 (c : Dev nD) (t : Fin cfg0.N) : iblk0 V c 5 t = V c main_v8 := by
  obtain ⟨e30, e31, e40, e41, e50, e51, e60, e61, e70, e71, e80, e81⟩ := idx_facts_w t
  funext y
  show V c main_v8 (((cfg0.win 5).blk t).view.emb y) = V c main_v8 y
  refine congrArg _ (funext fun a => Fin.ext ?_)
  match a with
  | ⟨0, _⟩ => show win0_5.index t (0 : Fin 2) * 16 + 1 * (y 0).val = (y 0).val; omega
  | ⟨1, _⟩ => show win0_5.index t (1 : Fin 2) * 64 + 1 * (y 1).val = (y 1).val; omega

theorem wblk6 (c : Dev nD) (t : Fin cfg0.N) : iblk0 V c 6 t = V c main_v9 := by
  obtain ⟨e30, e31, e40, e41, e50, e51, e60, e61, e70, e71, e80, e81⟩ := idx_facts_w t
  funext y
  show V c main_v9 (((cfg0.win 6).blk t).view.emb y) = V c main_v9 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem wblk7 (c : Dev nD) (t : Fin cfg0.N) : iblk0 V c 7 t = V c main_arg5 := by
  obtain ⟨e30, e31, e40, e41, e50, e51, e60, e61, e70, e71, e80, e81⟩ := idx_facts_w t
  funext y
  show V c main_arg5 (((cfg0.win 7).blk t).view.emb y) = V c main_arg5 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 32 + 1 * (y 1).val = (y 1).val; omega

theorem wblk8 (c : Dev nD) (t : Fin cfg0.N) : iblk0 V c 8 t = V c main_v10 := by
  obtain ⟨e30, e31, e40, e41, e50, e51, e60, e61, e70, e71, e80, e81⟩ := idx_facts_w t
  funext y
  show V c main_v10 (((cfg0.win 8).blk t).view.emb y) = V c main_v10 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 32 + 1 * (y 1).val = (y 1).val; omega

/-- What point `t` writes back is block (t, 0) of `G`: row `r` of the block is row `t * 12800 + r` of each row-blocked
    operand and of the result, and the message at a row depends on that row only. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S12800x32) hz, View.ld_unit_zero (S := S32x64) hz,
    View.ld_unit_zero (S := S12800x16) hz, View.ld_unit_zero (S := S16x64) hz, View.ld_unit_zero (S := S1x64) hz,
    View.ld_unit_zero (S := S64x32) hz, View.ld_unit_zero (S := S1x32) hz]
  rw [pay_eq]
  obtain ⟨e00, e01, e10, e11, e20, e21, e90, e91⟩ := idx_rows t
  funext j
  show Cert.Spec.msgAt 12800 _ _ _ _ _ _ _ _ _ (j 0) (j 1)
    = Cert.Spec.msgAt 1600000 _ _ _ _ _ _ _ _ _ ((((cfg0.win 9).blk t).view.emb j) 0) ((((cfg0.win 9).blk t).view.emb j) 1)
  refine msgAt_congr ?_ ?_ ?_ (wblk3 V c t) (wblk4 V c t) (wblk5 V c t) (wblk6 V c t) (wblk7 V c t) (wblk8 V c t) ?_
  · intro p
    show V c main_v4 (((cfg0.win 0).blk t).view.emb (ix2 (j 0) p))
      = V c main_v4 (ix2 ((((cfg0.win 9).blk t).view.emb j) 0) p)
    refine congrArg _ (funext fun a => Fin.ext ?_)
    match a with
    | ⟨0, _⟩ =>
      show win0_0.index t (0 : Fin 2) * 12800 + 1 * (j 0).val = win0_9.index t (0 : Fin 2) * 12800 + 1 * (j 0).val
      omega
    | ⟨1, _⟩ => show win0_0.index t (1 : Fin 2) * 32 + 1 * p.val = p.val; omega
  · intro p
    show V c main_v5 (((cfg0.win 1).blk t).view.emb (ix2 (j 0) p))
      = V c main_v5 (ix2 ((((cfg0.win 9).blk t).view.emb j) 0) p)
    refine congrArg _ (funext fun a => Fin.ext ?_)
    match a with
    | ⟨0, _⟩ =>
      show win0_1.index t (0 : Fin 2) * 12800 + 1 * (j 0).val = win0_9.index t (0 : Fin 2) * 12800 + 1 * (j 0).val
      omega
    | ⟨1, _⟩ => show win0_1.index t (1 : Fin 2) * 32 + 1 * p.val = p.val; omega
  · intro p
    show V c main_arg2 (((cfg0.win 2).blk t).view.emb (ix2 (j 0) p))
      = V c main_arg2 (ix2 ((((cfg0.win 9).blk t).view.emb j) 0) p)
    refine congrArg _ (funext fun a => Fin.ext ?_)
    match a with
    | ⟨0, _⟩ =>
      show win0_2.index t (0 : Fin 2) * 12800 + 1 * (j 0).val = win0_9.index t (0 : Fin 2) * 12800 + 1 * (j 0).val
      omega
    | ⟨1, _⟩ => show win0_2.index t (1 : Fin 2) * 16 + 1 * p.val = p.val; omega
  · apply Fin.ext
    show (j 1).val = win0_9.index t (1 : Fin 2) * 32 + 1 * (j 1).val
    omega

/-- An index of the array is in point `t`'s block iff each coordinate is in the block's range on its axis. -/
theorem mem_blk (t : Fin cfg0.N) (i : S1600000x32.Idx) :
    i ∈ ((cfg0.win 9).blk t).view.set ↔ ∀ a : Fin 2, win0_9.index t a * S12800x32.size a ≤ (i a).val ∧ (i a).val < win0_9.index t a * S12800x32.size a + S12800x32.size a := by
  show i ∈ ((View.whole main_v11).slice (win0_9.rect t)).set ↔ _
  rw [View.set_slice_whole, Rect.mem_set_unit]
  exact Iff.rfl

/-- Every index of the array is in some point's block: row `r` is in the block of point `r / 12800`. -/
theorem cover (i : S1600000x32.Idx) :
    ∃ t : Fin cfg0.N, (cfg0.win 9).flush t = true ∧ i ∈ ((cfg0.win 9).blk t).view.set := by
  have hi0 : (i 0).val < 1600000 := (i 0).isLt
  have hi1 : (i 1).val < 32 := (i 1).isLt
  have hN : (i 0).val / 12800 < cfg0.N := by show (i 0).val / 12800 < 125; omega
  obtain ⟨-, -, -, -, -, -, e90, e91⟩ := idx_rows ⟨(i 0).val / 12800, hN⟩
  refine ⟨⟨(i 0).val / 12800, hN⟩, flush0_9 _, ?_⟩
  rw [mem_blk]
  intro a
  match a with
  | ⟨0, _⟩ =>
    show win0_9.index ⟨(i 0).val / 12800, hN⟩ (0 : Fin 2) * 12800 ≤ (i 0).val
      ∧ (i 0).val < win0_9.index ⟨(i 0).val / 12800, hN⟩ (0 : Fin 2) * 12800 + 12800
    rw [e90]
    show (i 0).val / 12800 * 12800 ≤ (i 0).val ∧ (i 0).val < (i 0).val / 12800 * 12800 + 12800
    omega
  | ⟨1, _⟩ =>
    show win0_9.index ⟨(i 0).val / 12800, hN⟩ (1 : Fin 2) * 32 ≤ (i 1).val
      ∧ (i 1).val < win0_9.index ⟨(i 0).val / 12800, hN⟩ (1 : Fin 2) * 32 + 32
    rw [e91]; omega

/-- The result array of the first call, after its last point, is the message network of the arrays the call found. -/
theorem final0 (c : Dev nD) :
    ((dat0 (F := Ideal) V c).arrAt 9 cfg0.N : S1600000x32.Idx → EReal)
      = Cert.Spec.msgOut 1600000 (V c main_v4) (V c main_v5) (V c main_arg2) (V c main_v6) (V c main_v7) (V c main_v8) (V c main_v9) (V c main_arg5) (V c main_v10) :=
  (dat0 (F := Ideal) V c).arrAt_eq_of_cover 9 (G V c) (fun t _ => flushed_eq V c t) cover

end Cert.KernelIdeal.Region0

end
-- ==== Proof.Region1Value.lean ====
/-
  The second call's output array as one function of the arrays the region finds.

  The call runs over five grid points. At point t its body reads rows 10000 t … 10000 t + 9999 of the node features and
  of the aggregated messages, and the four weight and bias arrays whole, and writes the same rows of the output.
  Three facts give the whole array:
  (1) the body's arithmetic on one block of 10000 rows is the two-layer update network of the specification on those
      rows: each matrix product into a zero accumulator is a plain sum over the contracted coordinate, the two bias
      broadcasts read the bias's only row, and the maximum with the zero splat is the positive part;
  (2) the network's value at a row depends on that row of the two row-indexed operands only, and row r of block t is
      row 10000 t + r of the array, so what point t writes back is block (t, 0) of the network over all 50000 rows;
  (3) row n lies in the block of point n / 10000, so the five blocks cover the array.
-/
import proofs.«427838_j63780264346297_4_alg».proof.Proof.Gen.KernelIdeal.Frame
import proofs.«427838_j63780264346297_4_alg».proof.Proof.Spec
import proofs.«427838_j63780264346297_4_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Region1

open Idealize.ShloMosaic Idealize.ShloMosaic.ValueIdx Idealize.ShloMosaic.TcCoe
open Idealize.ShloMosaic.Pipeline (Dat Cfg Window)
open Cert.KernelIdeal Cert.KernelIdeal.Gen

/-- The hidden layer's product (10000×32 by 32×64) into a zero accumulator, at one entry. -/
theorem hiddenDot_at (A : FVec Ideal S10000x32 .f32) (B : FVec Ideal S32x64 .f32) (r : Fin 10000) (k : Fin 64) :
    matmul dot_S10000x32_S32x64_S10000x64_1_0_0_1_n_n none A B (constant S10000x64 .f32 0x00000000#32) (ix2 r k)
      = ∑ p : Fin 32, A (ix2 r p) * B (ix2 p k) :=
  Cert.LibPlainDot.matmul_plain_apply 10000 32 64 none A B r k

/-- The output layer's product (10000×64 by 64×32) into a zero accumulator, at one entry. -/
theorem outDot_at (A : FVec Ideal S10000x64 .f32) (B : FVec Ideal S64x32 .f32) (r : Fin 10000) (q : Fin 32) :
    matmul dot_S10000x64_S64x32_S10000x32_1_0_0_1_n_n none A B (constant S10000x32 .f32 0x00000000#32) (ix2 r q)
      = ∑ k : Fin 64, A (ix2 r k) * B (ix2 k q) :=
  Cert.LibPlainDot.matmul_plain_apply 10000 64 32 none A B r q

/-- The hidden bias broadcast over the rows reads the bias's only row. -/
theorem bias64_at (x : FVec Ideal S1x64 .f32) (r : Fin 10000) (k : Fin 64) :
    broadcastTo S10000x64 x broadcasts_S1x64_S10000x64 (ix2 r k) = x (ix2 0 k) := by
  refine broadcastTo_apply x _ (ix2 r k) (ix2 0 k) ?_
  intro a
  match a with
  | ⟨0, _⟩ => rfl
  | ⟨1, _⟩ => rfl

/-- The output bias broadcast over the rows reads the bias's only row. -/
theorem bias32_at (x : FVec Ideal S1x32 .f32) (r : Fin 10000) (q : Fin 32) :
    broadcastTo S10000x32 x broadcasts_S1x32_S10000x32 (ix2 r q) = x (ix2 0 q) := by
  refine broadcastTo_apply x _ (ix2 r q) (ix2 0 q) ?_
  intro a
  match a with
  | ⟨0, _⟩ => rfl
  | ⟨1, _⟩ => rfl

/-- The body's arithmetic on one block of 10000 rows is the update network on those rows. -/
theorem pay_eq (v0 : Vec Ideal S10000x32 .f32) (v1 : Vec Ideal S32x64 .f32) (v4 : Vec Ideal S10000x32 .f32)
    (v6 : Vec Ideal S32x64 .f32) (v10 : Vec Ideal S1x64 .f32) (v16 : Vec Ideal S64x32 .f32) (v18 : Vec Ideal S1x32 .f32) :
    k1_pay1 (F := Ideal) v0 v1 v4 v6 v10 v16 v18 = Cert.Spec.updOut 10000 v0 v4 v1 v6 v10 v16 v18 := by
  funext j
  obtain ⟨r, q, rfl⟩ : ∃ (r : Fin 10000) (q : Fin 32), j = ix2 r q := ⟨j 0, j 1, eq_ix2 j⟩
  unfold k1_pay1
  simp only [shapeCast_self]
  rw [addf_apply, bias32_at, outDot_at, Cert.Spec.updOut_ix2]
  unfold Cert.Spec.updAt
  congr 1
  refine Finset.sum_congr rfl fun k _ => ?_
  congr 1
  rw [maximumf_apply, addf_apply, addf_apply, bias64_at, hiddenDot_at, hiddenDot_at, broadcast_apply,
    Ideal.ofBits_def, Ideal.ofBits_zero_f32]
  rfl

variable (V : (c : Dev nD) → (b : Ref sig .tc) → Buf (Elt Ideal) ((c : Thread nD τ).loc b))

/-- The update network at a row reads only that row of the two row-indexed operands: two pairs of operands that
    agree on a row (of possibly different row counts) give the same output there. -/
theorem updAt_row {R R' : Nat} (x agg : FVec Ideal ⟨2, ![R, 32]⟩ .f32) (x' agg' : FVec Ideal ⟨2, ![R', 32]⟩ .f32)
    (wa wb : FVec Ideal ⟨2, ![32, 64]⟩ .f32) (b1 : FVec Ideal ⟨2, ![1, 64]⟩ .f32)
    (w2 : FVec Ideal ⟨2, ![64, 32]⟩ .f32) (b2 : FVec Ideal ⟨2, ![1, 32]⟩ .f32) (n : Fin R) (n' : Fin R')
    (hx : ∀ p : Fin 32, x (ix2 n p) = x' (ix2 n' p)) (hagg : ∀ p : Fin 32, agg (ix2 n p) = agg' (ix2 n' p)) (j : Fin 32) :
    Cert.Spec.updAt R x agg wa wb b1 w2 b2 n j = Cert.Spec.updAt R' x' agg' wa wb b1 w2 b2 n' j := by
  unfold Cert.Spec.updAt Cert.Spec.updHidden
  simp only [hx, hagg]

/-- The offset vector of a whole-buffer access. -/
theorem zero_offsets : (![0, 0] : Fin 2 → Nat) = fun _ => 0 := funext fun a => by fin_cases a <;> rfl

/-- The printed index maps, decided once over the five grid points: the three row-blocked windows sit at block
    (t, 0), the five whole-array windows at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A grid point is below five. -/
theorem point_lt (t : Fin cfg1.N) : t.val < 5 := lt_of_lt_of_eq t.isLt N_1

/-- The whole-array windows: the block at any point is the array. -/
theorem iblk_wa (c : Dev nD) (t : Fin cfg1.N) : iblk1 V c 2 t = V c main_v15 := by
  obtain ⟨-, -, -, -, e0, e1, -⟩ := block_indices t
  funext j
  show V c main_v15 (((cfg1.win 2).blk t).view.emb j) = V c main_v15 j
  refine congrArg _ (funext fun a => Fin.ext ?_)
  match a with
  | ⟨0, _⟩ => show win1_2.index t (0 : Fin 2) * 32 + 1 * (j 0).val = (j 0).val; omega
  | ⟨1, _⟩ => show win1_2.index t (1 : Fin 2) * 64 + 1 * (j 1).val = (j 1).val; omega

/-- The second hidden weight matrix likewise. -/
theorem iblk_wb (c : Dev nD) (t : Fin cfg1.N) : iblk1 V c 3 t = V c main_v16 := by
  obtain ⟨-, -, -, -, -, -, e0, e1, -⟩ := block_indices t
  funext j
  show V c main_v16 (((cfg1.win 3).blk t).view.emb j) = V c main_v16 j
  refine congrArg _ (funext fun a => Fin.ext ?_)
  match a with
  | ⟨0, _⟩ => show win1_3.index t (0 : Fin 2) * 32 + 1 * (j 0).val = (j 0).val; omega
  | ⟨1, _⟩ => show win1_3.index t (1 : Fin 2) * 64 + 1 * (j 1).val = (j 1).val; omega

/-- The hidden bias likewise. -/
theorem iblk_b1 (c : Dev nD) (t : Fin cfg1.N) : iblk1 V c 4 t = V c main_v17 := by
  obtain ⟨-, -, -, -, -, -, -, -, e0, e1, -⟩ := block_indices t
  funext j
  show V c main_v17 (((cfg1.win 4).blk t).view.emb j) = V c main_v17 j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- The output weight matrix likewise. -/
theorem iblk_w2 (c : Dev nD) (t : Fin cfg1.N) : iblk1 V c 5 t = V c main_arg9 := by
  obtain ⟨-, -, -, -, -, -, -, -, -, -, e0, e1, -⟩ := block_indices t
  funext j
  show V c main_arg9 (((cfg1.win 5).blk t).view.emb j) = V c main_arg9 j
  refine congrArg _ (funext fun a => Fin.ext ?_)
  match a with
  | ⟨0, _⟩ => show win1_5.index t (0 : Fin 2) * 64 + 1 * (j 0).val = (j 0).val; omega
  | ⟨1, _⟩ => show win1_5.index t (1 : Fin 2) * 32 + 1 * (j 1).val = (j 1).val; omega

/-- The output bias likewise. -/
theorem iblk_b2 (c : Dev nD) (t : Fin cfg1.N) : iblk1 V c 6 t = V c main_v18 := by
  obtain ⟨-, -, -, -, -, -, -, -, -, -, -, -, e0, e1, -⟩ := block_indices t
  funext j
  show V c main_v18 (((cfg1.win 6).blk t).view.emb j) = V c main_v18 j
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 32 + 1 * (j 1).val = (j 1).val; omega

/-- Row `r` of the block of `x` at point `t` is row `10000 t + r` of `x`. -/
theorem iblk_x (c : Dev nD) (t : Fin cfg1.N) (r : Fin 10000) (p : Fin 32) (n : Fin 50000) (hn : n.val = t.val * 10000 + r.val) :
    (iblk1 V c 0 t : Vec Ideal S10000x32 .f32) (ix2 r p) = (V c main_arg0 : S50000x32.Idx → EReal) (ix2 n p) := by
  obtain ⟨e0, e1, -⟩ := block_indices t
  show V c main_arg0 (((cfg1.win 0).blk t).view.emb (ix2 r p)) = V c main_arg0 (ix2 n p)
  refine congrArg _ (funext fun a => Fin.ext ?_)
  match a with
  | ⟨0, _⟩ => show win1_0.index t (0 : Fin 2) * 10000 + 1 * r.val = n.val; omega
  | ⟨1, _⟩ => show win1_0.index t (1 : Fin 2) * 32 + 1 * p.val = p.val; omega

/-- The aggregated messages likewise. -/
theorem iblk_agg (c : Dev nD) (t : Fin cfg1.N) (r : Fin 10000) (p : Fin 32) (n : Fin 50000) (hn : n.val = t.val * 10000 + r.val) :
    (iblk1 V c 1 t : Vec Ideal S10000x32 .f32) (ix2 r p) = (V c main_v14 : S50000x32.Idx → EReal) (ix2 n p) := by
  obtain ⟨-, -, e0, e1, -⟩ := block_indices t
  show V c main_v14 (((cfg1.win 1).blk t).view.emb (ix2 r p)) = V c main_v14 (ix2 n p)
  refine congrArg _ (funext fun a => Fin.ext ?_)
  match a with
  | ⟨0, _⟩ => show win1_1.index t (0 : Fin 2) * 10000 + 1 * r.val = n.val; omega
  | ⟨1, _⟩ => show win1_1.index t (1 : Fin 2) * 32 + 1 * p.val = p.val; omega

/-- The whole output array: the update network over all 50000 rows of the arrays the region finds. -/
abbrev whole (c : Dev nD) : S50000x32.Idx → EReal :=
  Cert.Spec.updOut 50000 (V c main_arg0) (V c main_v14) (V c main_v15) (V c main_v16) (V c main_v17) (V c main_arg9) (V c main_v18)

/-- What point `t` writes back for the output window is block (t, 0) of the whole output array. -/
theorem flushed_eq (c : Dev nD) (t : Fin cfg1.N) :
    (dat1 (F := Ideal) V c).flushed 7 t = ((cfg1.win 7).blk t).view.read (Elt Ideal) (whole V c) := by
  show (cfg1.win 7).cut (grid1.coords t) ((dat1 (F := Ideal) V c).after 7 t) = _
  rw [after1_7]
  unfold out1_7
  rw [View.canon_unit_zero zero_offsets]
  simp only [View.ld_unit_zero (S := S10000x32) zero_offsets, View.ld_unit_zero (S := S32x64) zero_offsets,
    View.ld_unit_zero (S := S1x64) zero_offsets, View.ld_unit_zero (S := S64x32) zero_offsets,
    View.ld_unit_zero (S := S1x32) zero_offsets]
  rw [pay_eq, iblk_wa, iblk_wb, iblk_b1, iblk_w2, iblk_b2]
  obtain ⟨-, -, -, -, -, -, -, -, -, -, -, -, -, -, e0, e1⟩ := block_indices t
  have ht := point_lt t
  funext j
  obtain ⟨r, q, rfl⟩ : ∃ (r : Fin 10000) (q : Fin 32), j = ix2 r q := ⟨j 0, j 1, eq_ix2 j⟩
  have hr : r.val < 10000 := r.isLt
  show Cert.Spec.updOut 10000 (iblk1 V c 0 t) (iblk1 V c 1 t) (V c main_v15) (V c main_v16) (V c main_v17) (V c main_arg9) (V c main_v18) (ix2 r q)
    = whole V c (((cfg1.win 7).blk t).view.emb (ix2 r q))
  have hemb : ((cfg1.win 7).blk t).view.emb (ix2 r q) = ix2 (⟨t.val * 10000 + r.val, by omega⟩ : Fin 50000) q := by
    funext a; apply Fin.ext
    match a with
    | ⟨0, _⟩ => show win1_7.index t (0 : Fin 2) * 10000 + 1 * r.val = t.val * 10000 + r.val; omega
    | ⟨1, _⟩ => show win1_7.index t (1 : Fin 2) * 32 + 1 * q.val = q.val; omega
  rw [hemb, Cert.Spec.updOut_ix2]
  show _ = Cert.Spec.updAt 50000 _ _ _ _ _ _ _ _ _
  exact updAt_row _ _ _ _ _ _ _ _ _ _ _ (fun p => iblk_x V c t r p _ rfl) (fun p => iblk_agg V c t r p _ rfl) q

/-- An index of the array is in point `t`'s block iff each coordinate is in the block's range on its axis. -/
theorem mem_blk (t : Fin cfg1.N) (i : S50000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v19).slice (win1_7.rect t)).set ↔ _
  rw [View.set_slice_whole, Rect.mem_set_unit]
  exact Iff.rfl

/-- Every index of the array is in some point's block: row `n` is in the block of point `n / 10000`. -/
theorem covered (i : S50000x32.Idx) :
    ∃ t : Fin cfg1.N, (cfg1.win 7).flush t = true ∧ i ∈ ((cfg1.win 7).blk t).view.set := by
  have hi0 : (i 0).val < 50000 := (i 0).isLt
  have hi1 : (i 1).val < 32 := (i 1).isLt
  have hN : (i 0).val / 10000 < cfg1.N := by rw [show cfg1.N = 5 from N_1]; omega
  refine ⟨⟨(i 0).val / 10000, hN⟩, flush1_7 _, ?_⟩
  obtain ⟨-, -, -, -, -, -, -, -, -, -, -, -, -, -, e0, e1⟩ := block_indices ⟨(i 0).val / 10000, hN⟩
  have e0' : win1_7.index ⟨(i 0).val / 10000, hN⟩ (0 : Fin 2) = (i 0).val / 10000 := e0
  rw [mem_blk]
  intro a
  match a with
  | ⟨0, _⟩ => show win1_7.index ⟨(i 0).val / 10000, hN⟩ (0 : Fin 2) * 10000 ≤ (i 0).val ∧ (i 0).val < win1_7.index ⟨(i 0).val / 10000, hN⟩ (0 : Fin 2) * 10000 + 10000; omega
  | ⟨1, _⟩ => show win1_7.index ⟨(i 0).val / 10000, hN⟩ (1 : Fin 2) * 32 ≤ (i 1).val ∧ (i 1).val < win1_7.index ⟨(i 0).val / 10000, hN⟩ (1 : Fin 2) * 32 + 32; omega

/-- The array after the region's last point: the update network over all rows. -/
theorem final1 (c : Dev nD) :
    ((Gen.dat1 (F := Ideal) V c).arrAt 7 cfg1.N : S50000x32.Idx → EReal)
      = Cert.Spec.updOut 50000 (V c main_arg0) (V c main_v14) (V c main_v15) (V c main_v16) (V c main_v17) (V c main_arg9) (V c main_v18) :=
  (dat1 (F := Ideal) V c).arrAt_eq_of_cover 7 (whole V c) (fun t _ => flushed_eq V c t) covered

end Cert.KernelIdeal.Region1

end
-- ==== Proof.KernelResult.lean ====
/-
  The idealized kernel's result as one function of the launch memory.

  The second grid writes, block of rows by block of rows, the update network of the node features and the aggregated
  messages; the aggregated messages are the first grid's output summed into their target nodes; the first grid's
  output is the message network of the two gathered feature arrays and the edge features. Substituting what each
  grid finds in its operands gives the result below. The two gathered arrays are left as parameters here.
-/
import proofs.«427838_j63780264346297_4_alg».proof.Proof.KernelValue
import proofs.«427838_j63780264346297_4_alg».proof.Proof.Region0Value
import proofs.«427838_j63780264346297_4_alg».proof.Proof.Region1Value

set_option maxRecDepth 16384

noncomputable section

namespace Cert.KernelIdeal.Result

open Cert.KernelIdeal Cert.KernelIdeal.Gen Cert.KernelIdeal.HostValue
open Idealize.ShloMosaic Idealize.ShloMosaic.TcCoe Idealize.SL.Sem

variable (m : (ℓ : Loc nD τ sig) → Buf (Elt Ideal) ℓ) (ρ : Dev nD → PrngReg) (c : Dev nD)

/-- The messages: the message network of the two gathered arrays `XI`, `XJ` and the edge features. -/
def messages (XI XJ : FVec Ideal S1600000x32 .f32) : FVec Ideal S1600000x32 .f32 :=
  Cert.Spec.msgOut 1600000 XI XJ (m ((c : Thread nD τ).loc main_arg2))
    (extractStridedSlice S32x64 ![0, 0] (m ((c : Thread nD τ).loc main_arg3)) slices_S80x64_S32x64_0_0)
    (extractStridedSlice S32x64 ![32, 0] (m ((c : Thread nD τ).loc main_arg3)) slices_S80x64_S32x64_32_0)
    (extractStridedSlice S16x64 ![64, 0] (m ((c : Thread nD τ).loc main_arg3)) slices_S80x64_S16x64_64_0)
    (shapeCast S1x64 (m ((c : Thread nD τ).loc main_arg4)) shapeCasts_S64_S1x64)
    (m ((c : Thread nD τ).loc main_arg5))
    (shapeCast S1x32 (m ((c : Thread nD τ).loc main_arg6)) shapeCasts_S32_S1x32)

/-- The result: the update network of the node features and of the messages summed into their target nodes. -/
def result (XI XJ : FVec Ideal S1600000x32 .f32) : FVec Ideal S50000x32 .f32 :=
  Cert.Spec.updOut 50000 (m ((c : Thread nD τ).loc main_arg0))
    (Host.scatterAdd scatter_S50000x32_S1600000x1_S1600000x32_1_0_0_1
      (broadcastInDim S50000x32 ![] bcast_S_S50000x32 (constant S_ .f32 0x00000000#32))
      (broadcastInDim S1600000x1 ![0] bcast_S1600000_S1600000x1_0
        (shapeCast S1600000 (extractStridedSlice S1x1600000 ![1, 0] (m ((c : Thread nD τ).loc main_arg11)) slices_S2x1600000_S1x1600000_1_0) shapeCasts_S1x1600000_S1600000))
      (messages m c XI XJ))
    (extractStridedSlice S32x64 ![0, 0] (m ((c : Thread nD τ).loc main_arg7)) slices_S64x64_S32x64_0_0)
    (extractStridedSlice S32x64 ![32, 0] (m ((c : Thread nD τ).loc main_arg7)) slices_S64x64_S32x64_32_0)
    (shapeCast S1x64 (m ((c : Thread nD τ).loc main_arg8)) shapeCasts_S64_S1x64)
    (m ((c : Thread nD τ).loc main_arg9))
    (shapeCast S1x32 (m ((c : Thread nD τ).loc main_arg10)) shapeCasts_S32_S1x32)

/-- Where the run ends, the result buffer holds `result` of whatever the first grid found as its gathered operands. -/
theorem W7_v19 (XI XJ : FVec Ideal S1600000x32 .f32)
    (hxi : (V4 m ρ c main_v4 : S1600000x32.Idx → EReal) = XI)
    (hxj : (V4 m ρ c main_v5 : S1600000x32.Idx → EReal) = XJ) :
    (W7 m ρ c (Proc.devRef .tc main_v19) : S50000x32.Idx → EReal) = result m c XI XJ := by
  have h1 : W7 m ρ c (Proc.devRef .tc main_v19) = (dat1 (V6 m ρ) c).arrAt 7 cfg1.N := W7_arr m ρ c 7
  rw [h1, Cert.KernelIdeal.Region1.final1 (V6 m ρ) c, V6_arg0 m ρ c, V6_v14 m ρ c, V6_v15 m ρ c, V6_v16 m ρ c,
    V6_v17 m ρ c, V6_arg9 m ρ c, V6_v18 m ρ c, Cert.KernelIdeal.Region0.final0 (V4 m ρ) c, hxi, hxj,
    V4_arg2 m ρ c, V4_v6 m ρ c, V4_v7 m ρ c, V4_v8 m ρ c, V4_v9 m ρ c, V4_arg5 m ρ c, V4_v10 m ρ c]
  rfl

end Cert.KernelIdeal.Result

end
-- ==== Proof.RefValue.lean ====
/-
  The reference's two networks, written with one product against the stacked weight matrix, are the split-sum
  networks of the specification.

  The reference stacks the rows it feeds a network side by side (80 = 32 + 32 + 16 columns for a message, 64 = 32 + 32
  for an update) and multiplies once by the whole first-layer matrix. Entry (e, k) of that product is a sum over the
  stacked columns; cut where the pieces meet, it is the sum of the pieces' own products with the matching rows of the
  matrix. Only associativity and commutativity of addition on the extended reals are used, so nothing needs to be
  finite. The biases are read through their two broadcasts, the positive part and the second layer are the same on
  both sides.
-/
import proofs.«427838_j63780264346297_4_alg».proof.Proof.Spec
import proofs.«427838_j63780264346297_4_alg».proof.Proof.LibPlainDot
import Idealize.ShloMosaic.PureOps.Ideal.Laws
import Idealize.ShloMosaic.Lib.ValueIdx
import Idealize.ShloMosaic.Lib.Pipeline.Value

noncomputable section

open scoped BigOperators

namespace Cert.RefNet

open Idealize.ShloMosaic Idealize.ShloMosaic.ValueIdx

/-! ## Sums over stacked columns -/

/-- A sum over 80 columns, cut after column 32 and after column 64. -/
theorem sum_fin80 {M : Type} [AddCommMonoid M] (f : Fin 80 → M) :
    ∑ q, f q = ((∑ p : Fin 32, f ⟨p.val, by omega⟩) + ∑ p : Fin 32, f ⟨32 + p.val, by omega⟩)
      + ∑ p : Fin 16, f ⟨64 + p.val, by omega⟩ := by
  have h1 := Fin.sum_univ_add (a := 32) (b := 48) (f : Fin (32 + 48) → M)
  have h2 := Fin.sum_univ_add (a := 32) (b := 16) (fun i : Fin (32 + 16) => f (Fin.natAdd 32 i))
  rw [show (∑ q, f q) = ∑ i : Fin (32 + 48), (f : Fin (32 + 48) → M) i from rfl, h1,
    show (∑ i : Fin 48, (f : Fin (32 + 48) → M) (Fin.natAdd 32 i)) = ∑ i : Fin (32 + 16), f (Fin.natAdd 32 i) from rfl, h2,
    ← add_assoc]
  refine congrArg₂ (· + ·) (congrArg₂ (· + ·) rfl rfl) (Finset.sum_congr rfl fun p _ => congrArg f (Fin.ext ?_))
  show 32 + (32 + p.val) = 64 + p.val
  omega

/-- A sum over 64 columns, cut after column 32. -/
theorem sum_fin64 {M : Type} [AddCommMonoid M] (f : Fin 64 → M) :
    ∑ q, f q = (∑ p : Fin 32, f ⟨p.val, by omega⟩) + ∑ p : Fin 32, f ⟨32 + p.val, by omega⟩ := by
  have h1 := Fin.sum_univ_add (a := 32) (b := 32) (f : Fin (32 + 32) → M)
  rw [show (∑ q, f q) = ∑ i : Fin (32 + 32), (f : Fin (32 + 32) → M) i from rfl, h1]
  rfl

/-! ## A stacked row read in its parts -/

section Cat
variable {R : Nat}

/-- Columns 0..31 of the three-part stack are the first part. -/
theorem cat3_first (a b : FVec Ideal ⟨2, ![R, 32]⟩ .f32) (c : FVec Ideal ⟨2, ![R, 16]⟩ .f32)
    (h : Shape.Concatenates [⟨2, ![R, 32]⟩, ⟨2, ![R, 32]⟩, ⟨2, ![R, 16]⟩] ⟨2, ![R, 80]⟩ 1) (e : Fin R) (p : Fin 32) :
    concatenate ⟨2, ![R, 80]⟩ 1 [⟨⟨2, ![R, 32]⟩, a⟩, ⟨⟨2, ![R, 32]⟩, b⟩, ⟨⟨2, ![R, 16]⟩, c⟩] h (ix2 e ⟨p.val, by omega⟩)
      = a (ix2 e p) := by
  refine concatenate_apply_piece (t := ⟨2, ![R, 80]⟩) (1 : Fin 2) [⟨⟨2, ![R, 32]⟩, a⟩, ⟨⟨2, ![R, 32]⟩, b⟩, ⟨⟨2, ![R, 16]⟩, c⟩] h (ix2 e _) 0 (by simp) ⟨2, ![R, 32]⟩ a rfl rfl 0 rfl (ix2 e p) ?_ ?_
  · intro b' hb'
    match b', hb' with
    | ⟨0, _⟩, _ => rfl
    | ⟨1, _⟩, hb' => exact absurd rfl hb'
  · show 0 + p.val = p.val
    omega

/-- Columns 32..63 of the three-part stack are the second part. -/
theorem cat3_second (a b : FVec Ideal ⟨2, ![R, 32]⟩ .f32) (c : FVec Ideal ⟨2, ![R, 16]⟩ .f32)
    (h : Shape.Concatenates [⟨2, ![R, 32]⟩, ⟨2, ![R, 32]⟩, ⟨2, ![R, 16]⟩] ⟨2, ![R, 80]⟩ 1) (e : Fin R) (p : Fin 32) :
    concatenate ⟨2, ![R, 80]⟩ 1 [⟨⟨2, ![R, 32]⟩, a⟩, ⟨⟨2, ![R, 32]⟩, b⟩, ⟨⟨2, ![R, 16]⟩, c⟩] h (ix2 e ⟨32 + p.val, by omega⟩)
      = b (ix2 e p) := by
  refine concatenate_apply_piece (t := ⟨2, ![R, 80]⟩) (1 : Fin 2) [⟨⟨2, ![R, 32]⟩, a⟩, ⟨⟨2, ![R, 32]⟩, b⟩, ⟨⟨2, ![R, 16]⟩, c⟩] h (ix2 e _) 1 (by simp) ⟨2, ![R, 32]⟩ b rfl rfl 32 rfl (ix2 e p) ?_ ?_
  · intro b' hb'
    match b', hb' with
    | ⟨0, _⟩, _ => rfl
    | ⟨1, _⟩, hb' => exact absurd rfl hb'
  · rfl

/-- Columns 64..79 of the three-part stack are the third part. -/
theorem cat3_third (a b : FVec Ideal ⟨2, ![R, 32]⟩ .f32) (c : FVec Ideal ⟨2, ![R, 16]⟩ .f32)
    (h : Shape.Concatenates [⟨2, ![R, 32]⟩, ⟨2, ![R, 32]⟩, ⟨2, ![R, 16]⟩] ⟨2, ![R, 80]⟩ 1) (e : Fin R) (p : Fin 16) :
    concatenate ⟨2, ![R, 80]⟩ 1 [⟨⟨2, ![R, 32]⟩, a⟩, ⟨⟨2, ![R, 32]⟩, b⟩, ⟨⟨2, ![R, 16]⟩, c⟩] h (ix2 e ⟨64 + p.val, by omega⟩)
      = c (ix2 e p) := by
  refine concatenate_apply_piece (t := ⟨2, ![R, 80]⟩) (1 : Fin 2) [⟨⟨2, ![R, 32]⟩, a⟩, ⟨⟨2, ![R, 32]⟩, b⟩, ⟨⟨2, ![R, 16]⟩, c⟩] h (ix2 e _) 2 (by simp) ⟨2, ![R, 16]⟩ c rfl rfl 64 rfl (ix2 e p) ?_ ?_
  · intro b' hb'
    match b', hb' with
    | ⟨0, _⟩, _ => rfl
    | ⟨1, _⟩, hb' => exact absurd rfl hb'
  · rfl

/-- Columns 0..31 of the two-part stack are the first part. -/
theorem cat2_first (a b : FVec Ideal ⟨2, ![R, 32]⟩ .f32)
    (h : Shape.Concatenates [⟨2, ![R, 32]⟩, ⟨2, ![R, 32]⟩] ⟨2, ![R, 64]⟩ 1) (e : Fin R) (p : Fin 32) :
    concatenate ⟨2, ![R, 64]⟩ 1 [⟨⟨2, ![R, 32]⟩, a⟩, ⟨⟨2, ![R, 32]⟩, b⟩] h (ix2 e ⟨p.val, by omega⟩) = a (ix2 e p) := by
  refine concatenate_apply_piece (t := ⟨2, ![R, 64]⟩) (1 : Fin 2) [⟨⟨2, ![R, 32]⟩, a⟩, ⟨⟨2, ![R, 32]⟩, b⟩] h (ix2 e _) 0 (by simp) ⟨2, ![R, 32]⟩ a rfl rfl 0 rfl (ix2 e p) ?_ ?_
  · intro b' hb'
    match b', hb' with
    | ⟨0, _⟩, _ => rfl
    | ⟨1, _⟩, hb' => exact absurd rfl hb'
  · show 0 + p.val = p.val
    omega

/-- Columns 32..63 of the two-part stack are the second part. -/
theorem cat2_second (a b : FVec Ideal ⟨2, ![R, 32]⟩ .f32)
    (h : Shape.Concatenates [⟨2, ![R, 32]⟩, ⟨2, ![R, 32]⟩] ⟨2, ![R, 64]⟩ 1) (e : Fin R) (p : Fin 32) :
    concatenate ⟨2, ![R, 64]⟩ 1 [⟨⟨2, ![R, 32]⟩, a⟩, ⟨⟨2, ![R, 32]⟩, b⟩] h (ix2 e ⟨32 + p.val, by omega⟩) = b (ix2 e p) := by
  refine concatenate_apply_piece (t := ⟨2, ![R, 64]⟩) (1 : Fin 2) [⟨⟨2, ![R, 32]⟩, a⟩, ⟨⟨2, ![R, 32]⟩, b⟩] h (ix2 e _) 1 (by simp) ⟨2, ![R, 32]⟩ b rfl rfl 32 rfl (ix2 e p) ?_ ?_
  · intro b' hb'
    match b', hb' with
    | ⟨0, _⟩, _ => rfl
    | ⟨1, _⟩, hb' => exact absurd rfl hb'
  · rfl

end Cat

/-! ## The reference's message network is the split-sum network -/

/-- The reference's message network over `R` rows — one product of the stacked rows with the whole first-layer
    matrix, the bias through its two broadcasts, the positive part, the second layer and its bias — is the
    specification's, with the first-layer matrix cut into the three blocks of rows that meet the three parts and
    each bias read as a one-row matrix. -/
theorem refMsg_eq (R : Nat)
    (d1 : DotDims ⟨2, ![R, 80]⟩ ⟨2, ![80, 64]⟩ ⟨2, ![R, 64]⟩) (hd1 : d1 = DotDims.plain R 80 64)
    (d2 : DotDims ⟨2, ![R, 64]⟩ ⟨2, ![64, 32]⟩ ⟨2, ![R, 32]⟩) (hd2 : d2 = DotDims.plain R 64 32)
    (a b : FVec Ideal ⟨2, ![R, 32]⟩ .f32) (c : FVec Ideal ⟨2, ![R, 16]⟩ .f32)
    (W1 : FVec Ideal ⟨2, ![80, 64]⟩ .f32) (b1 : FVec Ideal ⟨1, ![64]⟩ .f32)
    (W2 : FVec Ideal ⟨2, ![64, 32]⟩ .f32) (b2 : FVec Ideal ⟨1, ![32]⟩ .f32)
    (hcat : Shape.Concatenates [⟨2, ![R, 32]⟩, ⟨2, ![R, 32]⟩, ⟨2, ![R, 16]⟩] ⟨2, ![R, 80]⟩ 1)
    (hb1 : (⟨1, ![64]⟩ : Shape).BroadcastsInDim ⟨2, ![1, 64]⟩ ![1])
    (hb1' : (⟨2, ![1, 64]⟩ : Shape).BroadcastsInDim ⟨2, ![R, 64]⟩ ![0, 1])
    (hz : (⟨0, ![]⟩ : Shape).BroadcastsInDim ⟨2, ![R, 64]⟩ ![])
    (hb2 : (⟨1, ![32]⟩ : Shape).BroadcastsInDim ⟨2, ![1, 32]⟩ ![1])
    (hb2' : (⟨2, ![1, 32]⟩ : Shape).BroadcastsInDim ⟨2, ![R, 32]⟩ ![0, 1])
    (hs0 : (⟨2, ![80, 64]⟩ : Shape).Slices ![0, 0] ⟨2, ![32, 64]⟩)
    (hs1 : (⟨2, ![80, 64]⟩ : Shape).Slices ![32, 0] ⟨2, ![32, 64]⟩)
    (hs2 : (⟨2, ![80, 64]⟩ : Shape).Slices ![64, 0] ⟨2, ![16, 64]⟩)
    (hc1 : (⟨1, ![64]⟩ : Shape).ShapeCasts ⟨2, ![1, 64]⟩) (hc2 : (⟨1, ![32]⟩ : Shape).ShapeCasts ⟨2, ![1, 32]⟩) :
    addf (Host.dotGeneral d2 none
        (maximumf (addf (Host.dotGeneral d1 none
            (concatenate ⟨2, ![R, 80]⟩ 1 [⟨⟨2, ![R, 32]⟩, a⟩, ⟨⟨2, ![R, 32]⟩, b⟩, ⟨⟨2, ![R, 16]⟩, c⟩] hcat) W1)
          (broadcastInDim ⟨2, ![R, 64]⟩ ![0, 1] hb1' (broadcastInDim ⟨2, ![1, 64]⟩ ![1] hb1 b1)))
          (broadcastInDim ⟨2, ![R, 64]⟩ ![] hz (constant ⟨0, ![]⟩ .f32 0x00000000#32))) W2)
      (broadcastInDim ⟨2, ![R, 32]⟩ ![0, 1] hb2' (broadcastInDim ⟨2, ![1, 32]⟩ ![1] hb2 b2))
    = Cert.Spec.msgOut R a b c (extractStridedSlice ⟨2, ![32, 64]⟩ ![0, 0] W1 hs0)
        (extractStridedSlice ⟨2, ![32, 64]⟩ ![32, 0] W1 hs1) (extractStridedSlice ⟨2, ![16, 64]⟩ ![64, 0] W1 hs2)
        (shapeCast ⟨2, ![1, 64]⟩ b1 hc1) W2 (shapeCast ⟨2, ![1, 32]⟩ b2 hc2) := by
  subst hd1; subst hd2
  funext i
  obtain ⟨e, j, rfl⟩ : ∃ (e : Fin R) (j : Fin 32), i = ix2 e j := ⟨i 0, i 1, eq_ix2 i⟩
  rw [Cert.Spec.msgOut_ix2]
  unfold Cert.Spec.msgAt
  -- the second layer's bias, through its two broadcasts
  have hbias2 : broadcastInDim ⟨2, ![R, 32]⟩ ![0, 1] hb2' (broadcastInDim ⟨2, ![1, 32]⟩ ![1] hb2 b2) (ix2 e j)
      = shapeCast ⟨2, ![1, 32]⟩ b2 hc2 (ix2 0 j) := by
    rw [broadcastInDim_apply ![0, 1] hb2' _ (ix2 e j) (ix2 0 j) (fun a' => by
        match a' with
        | ⟨0, _⟩ => rfl
        | ⟨1, _⟩ => rfl),
      broadcastInDim_apply ![1] hb2 b2 (ix2 0 j) (ix1 j) (fun a' => by
        match a' with
        | ⟨0, _⟩ => rfl),
      shapeCast_apply b2 hc2 (ix2 0 j) (ix1 j) (by
        rw [Shape.rowMajor_val_one, Shape.rowMajor_val_two]; simp)]
  -- the first layer's bias, through its two broadcasts
  have hbias1 : ∀ k : Fin 64,
      broadcastInDim ⟨2, ![R, 64]⟩ ![0, 1] hb1' (broadcastInDim ⟨2, ![1, 64]⟩ ![1] hb1 b1) (ix2 e k)
      = shapeCast ⟨2, ![1, 64]⟩ b1 hc1 (ix2 0 k) := fun k => by
    rw [broadcastInDim_apply ![0, 1] hb1' _ (ix2 e k) (ix2 0 k) (fun a' => by
        match a' with
        | ⟨0, _⟩ => rfl
        | ⟨1, _⟩ => rfl),
      broadcastInDim_apply ![1] hb1 b1 (ix2 0 k) (ix1 k) (fun a' => by
        match a' with
        | ⟨0, _⟩ => rfl),
      shapeCast_apply b1 hc1 (ix2 0 k) (ix1 k) (by
        rw [Shape.rowMajor_val_one, Shape.rowMajor_val_two]; simp)]
  -- the rows of the first-layer matrix, block by block
  have hw0 : ∀ (p : Fin 32) (k : Fin 64), W1 (ix2 ⟨p.val, by omega⟩ k)
      = extractStridedSlice ⟨2, ![32, 64]⟩ ![0, 0] W1 hs0 (ix2 p k) := fun p k =>
    (extractStridedSlice_apply ![0, 0] W1 hs0 (ix2 p k) (ix2 ⟨p.val, by omega⟩ k) (fun a' => by
      match a' with
      | ⟨0, _⟩ => show p.val = 0 + p.val; omega
      | ⟨1, _⟩ => show k.val = 0 + k.val; omega)).symm
  have hw1 : ∀ (p : Fin 32) (k : Fin 64), W1 (ix2 ⟨32 + p.val, by omega⟩ k)
      = extractStridedSlice ⟨2, ![32, 64]⟩ ![32, 0] W1 hs1 (ix2 p k) := fun p k =>
    (extractStridedSlice_apply ![32, 0] W1 hs1 (ix2 p k) (ix2 ⟨32 + p.val, by omega⟩ k) (fun a' => by
      match a' with
      | ⟨0, _⟩ => rfl
      | ⟨1, _⟩ => show k.val = 0 + k.val; omega)).symm
  have hw2 : ∀ (p : Fin 16) (k : Fin 64), W1 (ix2 ⟨64 + p.val, by omega⟩ k)
      = extractStridedSlice ⟨2, ![16, 64]⟩ ![64, 0] W1 hs2 (ix2 p k) := fun p k =>
    (extractStridedSlice_apply ![64, 0] W1 hs2 (ix2 p k) (ix2 ⟨64 + p.val, by omega⟩ k) (fun a' => by
      match a' with
      | ⟨0, _⟩ => rfl
      | ⟨1, _⟩ => show k.val = 0 + k.val; omega)).symm
  -- the hidden layer, unit by unit
  have hhid : ∀ k : Fin 64,
      maximumf (addf (Host.dotGeneral (DotDims.plain R 80 64) none
            (concatenate ⟨2, ![R, 80]⟩ 1 [⟨⟨2, ![R, 32]⟩, a⟩, ⟨⟨2, ![R, 32]⟩, b⟩, ⟨⟨2, ![R, 16]⟩, c⟩] hcat) W1)
          (broadcastInDim ⟨2, ![R, 64]⟩ ![0, 1] hb1' (broadcastInDim ⟨2, ![1, 64]⟩ ![1] hb1 b1)))
          (broadcastInDim ⟨2, ![R, 64]⟩ ![] hz (constant ⟨0, ![]⟩ .f32 0x00000000#32)) (ix2 e k)
      = Cert.Spec.msgHidden R a b c (extractStridedSlice ⟨2, ![32, 64]⟩ ![0, 0] W1 hs0)
        (extractStridedSlice ⟨2, ![32, 64]⟩ ![32, 0] W1 hs1) (extractStridedSlice ⟨2, ![16, 64]⟩ ![64, 0] W1 hs2)
        (shapeCast ⟨2, ![1, 64]⟩ b1 hc1) e k := fun k => by
    show max ((Host.dotGeneral (DotDims.plain R 80 64) none _ W1 (ix2 e k)) + _) _ = _
    unfold Cert.Spec.msgHidden
    refine congrArg₂ max (congrArg₂ (· + ·) ?_ (hbias1 k)) ?_
    · simp only [Host.dotGeneral]
      rw [Cert.LibPlainDot.dotGeneral_plain_apply, sum_fin80]
      refine congrArg₂ (· + ·) (congrArg₂ (· + ·) ?_ ?_) ?_
      · exact Finset.sum_congr rfl fun p _ => by rw [cat3_first, hw0]
      · exact Finset.sum_congr rfl fun p _ => by rw [cat3_second, hw1]
      · exact Finset.sum_congr rfl fun p _ => by rw [cat3_third, hw2]
    · show Ideal.ofBits .f32 0x00000000#32 = 0
      exact Ideal.ofBits_zero_f32
  show (Host.dotGeneral (DotDims.plain R 64 32) none _ W2 (ix2 e j)) + _ = _
  refine congrArg₂ (· + ·) ?_ hbias2
  simp only [Host.dotGeneral]
  rw [Cert.LibPlainDot.dotGeneral_plain_apply]
  exact Finset.sum_congr rfl fun k _ => by rw [hhid k]

/-! ## The reference's update network is the split-sum network -/

/-- The reference's update network over `R` rows — one product of the stacked rows (a node's features beside its
    aggregated messages) with the whole first-layer matrix, and the rest as for a message — is the specification's,
    with the first-layer matrix cut into its upper and lower 32 rows and each bias read as a one-row matrix. -/
theorem refUpd_eq (R : Nat)
    (d1 : DotDims ⟨2, ![R, 64]⟩ ⟨2, ![64, 64]⟩ ⟨2, ![R, 64]⟩) (hd1 : d1 = DotDims.plain R 64 64)
    (d2 : DotDims ⟨2, ![R, 64]⟩ ⟨2, ![64, 32]⟩ ⟨2, ![R, 32]⟩) (hd2 : d2 = DotDims.plain R 64 32)
    (a b : FVec Ideal ⟨2, ![R, 32]⟩ .f32)
    (W1 : FVec Ideal ⟨2, ![64, 64]⟩ .f32) (b1 : FVec Ideal ⟨1, ![64]⟩ .f32)
    (W2 : FVec Ideal ⟨2, ![64, 32]⟩ .f32) (b2 : FVec Ideal ⟨1, ![32]⟩ .f32)
    (hcat : Shape.Concatenates [⟨2, ![R, 32]⟩, ⟨2, ![R, 32]⟩] ⟨2, ![R, 64]⟩ 1)
    (hb1 : (⟨1, ![64]⟩ : Shape).BroadcastsInDim ⟨2, ![1, 64]⟩ ![1])
    (hb1' : (⟨2, ![1, 64]⟩ : Shape).BroadcastsInDim ⟨2, ![R, 64]⟩ ![0, 1])
    (hz : (⟨0, ![]⟩ : Shape).BroadcastsInDim ⟨2, ![R, 64]⟩ ![])
    (hb2 : (⟨1, ![32]⟩ : Shape).BroadcastsInDim ⟨2, ![1, 32]⟩ ![1])
    (hb2' : (⟨2, ![1, 32]⟩ : Shape).BroadcastsInDim ⟨2, ![R, 32]⟩ ![0, 1])
    (hs0 : (⟨2, ![64, 64]⟩ : Shape).Slices ![0, 0] ⟨2, ![32, 64]⟩)
    (hs1 : (⟨2, ![64, 64]⟩ : Shape).Slices ![32, 0] ⟨2, ![32, 64]⟩)
    (hc1 : (⟨1, ![64]⟩ : Shape).ShapeCasts ⟨2, ![1, 64]⟩) (hc2 : (⟨1, ![32]⟩ : Shape).ShapeCasts ⟨2, ![1, 32]⟩) :
    addf (Host.dotGeneral d2 none
        (maximumf (addf (Host.dotGeneral d1 none
            (concatenate ⟨2, ![R, 64]⟩ 1 [⟨⟨2, ![R, 32]⟩, a⟩, ⟨⟨2, ![R, 32]⟩, b⟩] hcat) W1)
          (broadcastInDim ⟨2, ![R, 64]⟩ ![0, 1] hb1' (broadcastInDim ⟨2, ![1, 64]⟩ ![1] hb1 b1)))
          (broadcastInDim ⟨2, ![R, 64]⟩ ![] hz (constant ⟨0, ![]⟩ .f32 0x00000000#32))) W2)
      (broadcastInDim ⟨2, ![R, 32]⟩ ![0, 1] hb2' (broadcastInDim ⟨2, ![1, 32]⟩ ![1] hb2 b2))
    = Cert.Spec.updOut R a b (extractStridedSlice ⟨2, ![32, 64]⟩ ![0, 0] W1 hs0)
        (extractStridedSlice ⟨2, ![32, 64]⟩ ![32, 0] W1 hs1)
        (shapeCast ⟨2, ![1, 64]⟩ b1 hc1) W2 (shapeCast ⟨2, ![1, 32]⟩ b2 hc2) := by
  subst hd1; subst hd2
  funext i
  obtain ⟨n, j, rfl⟩ : ∃ (n : Fin R) (j : Fin 32), i = ix2 n j := ⟨i 0, i 1, eq_ix2 i⟩
  rw [Cert.Spec.updOut_ix2]
  unfold Cert.Spec.updAt
  -- the second layer's bias, through its two broadcasts
  have hbias2 : broadcastInDim ⟨2, ![R, 32]⟩ ![0, 1] hb2' (broadcastInDim ⟨2, ![1, 32]⟩ ![1] hb2 b2) (ix2 n j)
      = shapeCast ⟨2, ![1, 32]⟩ b2 hc2 (ix2 0 j) := by
    rw [broadcastInDim_apply ![0, 1] hb2' _ (ix2 n j) (ix2 0 j) (fun a' => by
        match a' with
        | ⟨0, _⟩ => rfl
        | ⟨1, _⟩ => rfl),
      broadcastInDim_apply ![1] hb2 b2 (ix2 0 j) (ix1 j) (fun a' => by
        match a' with
        | ⟨0, _⟩ => rfl),
      shapeCast_apply b2 hc2 (ix2 0 j) (ix1 j) (by
        rw [Shape.rowMajor_val_one, Shape.rowMajor_val_two]; simp)]
  -- the first layer's bias, through its two broadcasts
  have hbias1 : ∀ k : Fin 64,
      broadcastInDim ⟨2, ![R, 64]⟩ ![0, 1] hb1' (broadcastInDim ⟨2, ![1, 64]⟩ ![1] hb1 b1) (ix2 n k)
      = shapeCast ⟨2, ![1, 64]⟩ b1 hc1 (ix2 0 k) := fun k => by
    rw [broadcastInDim_apply ![0, 1] hb1' _ (ix2 n k) (ix2 0 k) (fun a' => by
        match a' with
        | ⟨0, _⟩ => rfl
        | ⟨1, _⟩ => rfl),
      broadcastInDim_apply ![1] hb1 b1 (ix2 0 k) (ix1 k) (fun a' => by
        match a' with
        | ⟨0, _⟩ => rfl),
      shapeCast_apply b1 hc1 (ix2 0 k) (ix1 k) (by
        rw [Shape.rowMajor_val_one, Shape.rowMajor_val_two]; simp)]
  -- the rows of the first-layer matrix, upper and lower half
  have hw0 : ∀ (p : Fin 32) (k : Fin 64), W1 (ix2 ⟨p.val, by omega⟩ k)
      = extractStridedSlice ⟨2, ![32, 64]⟩ ![0, 0] W1 hs0 (ix2 p k) := fun p k =>
    (extractStridedSlice_apply ![0, 0] W1 hs0 (ix2 p k) (ix2 ⟨p.val, by omega⟩ k) (fun a' => by
      match a' with
      | ⟨0, _⟩ => show p.val = 0 + p.val; omega
      | ⟨1, _⟩ => show k.val = 0 + k.val; omega)).symm
  have hw1 : ∀ (p : Fin 32) (k : Fin 64), W1 (ix2 ⟨32 + p.val, by omega⟩ k)
      = extractStridedSlice ⟨2, ![32, 64]⟩ ![32, 0] W1 hs1 (ix2 p k) := fun p k =>
    (extractStridedSlice_apply ![32, 0] W1 hs1 (ix2 p k) (ix2 ⟨32 + p.val, by omega⟩ k) (fun a' => by
      match a' with
      | ⟨0, _⟩ => rfl
      | ⟨1, _⟩ => show k.val = 0 + k.val; omega)).symm
  -- the hidden layer, unit by unit
  have hhid : ∀ k : Fin 64,
      maximumf (addf (Host.dotGeneral (DotDims.plain R 64 64) none
            (concatenate ⟨2, ![R, 64]⟩ 1 [⟨⟨2, ![R, 32]⟩, a⟩, ⟨⟨2, ![R, 32]⟩, b⟩] hcat) W1)
          (broadcastInDim ⟨2, ![R, 64]⟩ ![0, 1] hb1' (broadcastInDim ⟨2, ![1, 64]⟩ ![1] hb1 b1)))
          (broadcastInDim ⟨2, ![R, 64]⟩ ![] hz (constant ⟨0, ![]⟩ .f32 0x00000000#32)) (ix2 n k)
      = Cert.Spec.updHidden R a b (extractStridedSlice ⟨2, ![32, 64]⟩ ![0, 0] W1 hs0)
        (extractStridedSlice ⟨2, ![32, 64]⟩ ![32, 0] W1 hs1) (shapeCast ⟨2, ![1, 64]⟩ b1 hc1) n k := fun k => by
    show max ((Host.dotGeneral (DotDims.plain R 64 64) none _ W1 (ix2 n k)) + _) _ = _
    unfold Cert.Spec.updHidden
    refine congrArg₂ max (congrArg₂ (· + ·) ?_ (hbias1 k)) ?_
    · simp only [Host.dotGeneral]
      rw [Cert.LibPlainDot.dotGeneral_plain_apply, sum_fin64]
      refine congrArg₂ (· + ·) ?_ ?_
      · exact Finset.sum_congr rfl fun p _ => by rw [cat2_first, hw0]
      · exact Finset.sum_congr rfl fun p _ => by rw [cat2_second, hw1]
    · show Ideal.ofBits .f32 0x00000000#32 = 0
      exact Ideal.ofBits_zero_f32
  show (Host.dotGeneral (DotDims.plain R 64 32) none _ W2 (ix2 n j)) + _ = _
  refine congrArg₂ (· + ·) ?_ hbias2
  simp only [Host.dotGeneral]
  rw [Cert.LibPlainDot.dotGeneral_plain_apply]
  exact Finset.sum_congr rfl fun k _ => by rw [hhid k]

end Cert.RefNet

end
-- ==== Proof.LibTRef.lean ====
/-
  A value carried to a typed reference's buffer type and back is the value. A host operation of an inlined function is
  stated through typed references: its function takes the operands from their buffers' types to the values' types and
  returns the result the other way, each a transport along the reference's type equation. Composed, the two transports
  cancel, whatever the signature and the reference.
-/
import Idealize.ShloMosaic.Lib.StableHlo

noncomputable section

namespace Cert.LibTRef

open Idealize.ShloMosaic Idealize.ShloMosaic.StableHlo

/-- The round trip through a typed reference's buffer type is the identity. -/
theorem ofBuf_toBuf {sig : RefSig} {Val : EltTy → Type} {T : BufTy} (x : TRef sig T) (v : T.Contents Val) :
    x.ofBuf (x.toBuf v) = v := by
  obtain ⟨r, h, d, u⟩ := x
  subst h
  rfl

end Cert.LibTRef

end
-- ==== Proof.HostTake.lean ====
/-
  The two host-side row gathers before the first region, under the index-range precondition.

  The program takes rows of the node array x at the dst row and at the src row of the edge list. Each take prints as:
  wrap a negative index (select (idx < 0) (idx + 50000) idx), a trailing unit axis, the gather, and a select that
  replaces every row whose wrapped index is outside [0, 49999] by a fill word. When every entry of the edge list is a
  node number, 0 ≤ entry < 50000, no index is negative, so the wrap returns the index; both range compares are one at
  every index, their conjunction reduced over the unit axis is one, its broadcast is one, and a select on an all-ones
  mask returns its first branch: the take IS the bare gather at the wrapped start indices.

  The range fact itself is read out of the printed precondition: its last conjunct is the conjunction, over both axes,
  of (entry ≥ 0) and (entry < 50000); a conjunction by `and` that is one met only ones.
-/
import proofs.«427838_j63780264346297_4_alg».proof.Proof.Gen.KernelIdeal.Frame
import proofs.«427838_j63780264346297_4_alg».proof.Defs
import proofs.«427838_j63780264346297_4_alg».proof.Proof.LibTRef
import Idealize.ShloMosaic.Lib.StableHlo.Predicate
import Idealize.ShloMosaic.Lib.ReduceAll
import Idealize.ShloMosaic.Lib.StableHlo.Run
import Idealize.ShloMosaic.Lib.ValueIdx

set_option maxRecDepth 16384

noncomputable section

namespace Cert.KernelIdeal.HostTake

open Cert.KernelIdeal Cert.KernelIdeal.Gen
open Idealize.ShloMosaic Idealize.ShloMosaic.TcCoe Idealize.SL.Sem

/-! ## Words -/

theorem toInt_zero32 : (0#32 : BitVec 32).toInt = 0 := by decide
theorem toInt_50000 : (50000#32 : BitVec 32).toInt = 50000 := by decide
theorem toInt_49999 : (49999#32 : BitVec 32).toInt = 49999 := by decide

theorem ofBool_eq_one (b : Bool) : BitVec.ofBool b = 1#1 ↔ b = true := by cases b <;> decide

/-- a word in [0, 50000) is not negative: the wrap's test is 0 -/
theorem slt_zero_of_range (w : BitVec 32) (h0 : 0 ≤ w.toInt) : IntOp.cmpi .slt w 0#32 ≠ 1#1 := by
  intro h
  unfold IntOp.cmpi at h
  rw [ofBool_eq_one] at h
  simp only [BitVec.slt, toInt_zero32, decide_eq_true_eq] at h
  omega

theorem sge_zero_of_range (w : BitVec 32) (h0 : 0 ≤ w.toInt) : IntOp.cmpi .sge w 0#32 = 1#1 := by
  unfold IntOp.cmpi
  rw [ofBool_eq_one]
  simp only [BitVec.sle, toInt_zero32, decide_eq_true_eq]
  omega

theorem sle_max_of_range (w : BitVec 32) (h1 : w.toInt < 50000) : IntOp.cmpi .sle w 49999#32 = 1#1 := by
  unfold IntOp.cmpi
  rw [ofBool_eq_one]
  simp only [BitVec.sle, toInt_49999, decide_eq_true_eq]
  omega

/-- the two compares of the precondition, read back -/
theorem range_of_cmp (w : BitVec 32) (h0 : IntOp.cmpi .sge w 0#32 = 1#1) (h1 : IntOp.cmpi .slt w 50000#32 = 1#1) :
    0 ≤ w.toInt ∧ w.toInt < 50000 := by
  unfold IntOp.cmpi at h0 h1
  rw [ofBool_eq_one] at h0 h1
  simp only [BitVec.sle, BitVec.slt, toInt_zero32, toInt_50000, decide_eq_true_eq] at h0 h1
  exact ⟨h0, h1⟩

theorem select_of_ne_one {α : Type} (c : BitVec 1) (a b : α) (h : c ≠ 1#1) : Scalar.select c a b = b := by
  unfold Scalar.select; exact if_neg h

theorem select_of_eq_one {α : Type} (c : BitVec 1) (a b : α) (h : c = 1#1) : Scalar.select c a b = a := by
  unfold Scalar.select; exact if_pos h

theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    rw [List.foldl_cons]
    refine foldl_andi_one f l _ ?_ (fun n hn => hl n (List.mem_cons_of_mem _ hn))
    rw [hi, hl a (List.mem_cons_self ..)]; rfl

/-! ## Vectors -/

/-- every entry of the edge list is a node number -/
def InRange (idx : IVec S2x1600000 32) : Prop := ∀ i, 0 ≤ (idx i).toInt ∧ (idx i).toInt < 50000

/-- every entry of a row of node numbers is one -/
def RowInRange (d : IVec S1600000 32) : Prop := ∀ i, 0 ≤ (d i).toInt ∧ (d i).toInt < 50000

/-- row r of the edge list as the printed operations make it (slice, then reshape) -/
abbrev edgeRow (r : Nat) (idx : IVec S2x1600000 32) (hs : S2x1600000.Slices ![r, 0] S1x1600000) : IVec S1600000 32 :=
  shapeCast S1600000 (extractStridedSlice S1x1600000 ![r, 0] idx hs) shapeCasts_S1x1600000_S1600000

/-- the gather's start indices as the printed operations make them from a row d of node numbers: wrap a negative one,
    then a trailing unit axis -/
abbrev wrapIdx (d : IVec S1600000 32) : IVec S1600000x1 32 :=
  broadcastInDim S1600000x1 ![0] bcast_S1600000_S1600000x1_0
    (select (cmpi .slt d (broadcastInDim S1600000 ![] bcast_S_S1600000 (constantI S_ 32 0#32)))
      (addi d (broadcastInDim S1600000 ![] bcast_S_S1600000 (constantI S_ 32 50000#32))) d)

/-- a row of the edge list holds entries of the edge list -/
theorem edgeRow_inRange (r : Nat) (idx : IVec S2x1600000 32) (hs : S2x1600000.Slices ![r, 0] S1x1600000)
    (h : InRange idx) : RowInRange (edgeRow r idx hs) := fun i => h _

/-- on node numbers the wrap is the identity -/
theorem wrap_eq (d : IVec S1600000 32) (hd : RowInRange d) :
    select (cmpi .slt d (broadcastInDim S1600000 ![] bcast_S_S1600000 (constantI S_ 32 0#32)))
      (addi d (broadcastInDim S1600000 ![] bcast_S_S1600000 (constantI S_ 32 50000#32))) d = d := by
  funext i
  exact select_of_ne_one _ _ _ (slt_zero_of_range (d i) (hd i).1)

/-- the start indices are node numbers -/
theorem wrapIdx_range (d : IVec S1600000 32) (hd : RowInRange d) (j : S1600000x1.Idx) :
    0 ≤ (wrapIdx d j).toInt ∧ (wrapIdx d j).toInt < 50000 := by
  unfold wrapIdx
  rw [wrap_eq d hd]
  exact hd _

/-- the take's mask over start indices that are node numbers is all ones -/
theorem mask_one (s : IVec S1600000x1 32) (hs : ∀ j, 0 ≤ (s j).toInt ∧ (s j).toInt < 50000) :
    Host.reduce IntOp.andi
        (andi (cmpi .sge s (broadcastInDim S1600000x1 ![] bcast_S_S1600000x1 (constantI S_ 32 0#32)))
          (cmpi .sle s (broadcastInDim S1600000x1 ![0, 1] bcast_S1x1_S1600000x1_0_1
            (broadcastInDim S1x1 ![1] bcast_S1_S1x1_1 (constantI S1 32 49999#32)))))
        (constantI S_ 1 1#1) reducesTo_S1600000x1_S1600000_d1 h_S_
      = fun _ => 1#1 := by
  funext j
  rw [Host.reduce_eq_foldl]
  refine foldl_andi_one _ _ _ rfl (fun n _ => ?_)
  show IntOp.andi (IntOp.cmpi .sge (s n) 0#32) (IntOp.cmpi .sle (s n) 49999#32) = 1#1
  rw [sge_zero_of_range _ (hs n).1, sle_max_of_range _ (hs n).2]; rfl

/-- THE PURE STEP: the take of rows at node numbers is the bare gather -/
theorem take_eq_gather {α : Type} (d : IVec S1600000 32) (hd : RowInRange d) (g fill : S1600000x32.Idx → α) :
    select (broadcastInDim S1600000x32 ![0] bcast_S1600000_S1600000x32_0
        (Host.reduce IntOp.andi
          (andi (cmpi .sge (wrapIdx d) (broadcastInDim S1600000x1 ![] bcast_S_S1600000x1 (constantI S_ 32 0#32)))
            (cmpi .sle (wrapIdx d) (broadcastInDim S1600000x1 ![0, 1] bcast_S1x1_S1600000x1_0_1
              (broadcastInDim S1x1 ![1] bcast_S1_S1x1_1 (constantI S1 32 49999#32)))))
          (constantI S_ 1 1#1) reducesTo_S1600000x1_S1600000_d1 h_S_)) g fill = g := by
  rw [mask_one (wrapIdx d) (wrapIdx_range d hd)]
  funext i
  exact select_of_eq_one _ _ _ rfl

/-! ## The precondition decoded -/

instance : Subsingleton (⟨0, ![]⟩ : Shape).Idx := ⟨fun a b => funext fun d => d.elim0⟩

/-- the last conjunct of the printed precondition, at one entry -/
theorem range_of_fn [Cert.Pre_finite_inputs.Facts] (a0 : FVec Ideal Cert.Pre_finite_inputs.S50000x32 .f32)
    (a1 : FVec Ideal Cert.Pre_finite_inputs.S50000x1 .f32) (a2 : FVec Ideal Cert.Pre_finite_inputs.S1600000x16 .f32)
    (a3 : FVec Ideal Cert.Pre_finite_inputs.S80x64 .f32) (a4 : FVec Ideal Cert.Pre_finite_inputs.S64 .f32)
    (a5 : FVec Ideal Cert.Pre_finite_inputs.S64x32 .f32) (a6 : FVec Ideal Cert.Pre_finite_inputs.S32 .f32)
    (a7 : FVec Ideal Cert.Pre_finite_inputs.S64x64 .f32) (a8 : FVec Ideal Cert.Pre_finite_inputs.S64 .f32)
    (a9 : FVec Ideal Cert.Pre_finite_inputs.S64x32 .f32) (a10 : FVec Ideal Cert.Pre_finite_inputs.S32 .f32)
    (a11 : IVec Cert.Pre_finite_inputs.S2x1600000 32)
    (h : Cert.Pre_finite_inputs.fn (F := Ideal) a0 a1 a2 a3 a4 a5 a6 a7 a8 a9 a10 a11 = fun _ => 1#1)
    (i : Cert.Pre_finite_inputs.S2x1600000.Idx) : 0 ≤ (a11 i).toInt ∧ (a11 i).toInt < 50000 := by
  have e := congrFun h ValueIdx.ix0
  dsimp only [Cert.Pre_finite_inputs.fn, Cert.Pre_finite_inputs.fn_part1, Cert.Pre_finite_inputs.fn_part2,
    Cert.Pre_finite_inputs.fn_part3] at e
  have e1 := (IntOp.andi_eq_one.1 e).2
  have e2 := Host.reduce_andi_all _ _ _ _ _ e1 i
  obtain ⟨h0, h1⟩ := IntOp.andi_eq_one.1 e2
  exact range_of_cmp (a11 i) h0 h1

theorem range_of_pre [Cert.Pre_finite_inputs.Facts] (m : (ℓ : Loc nD τ sig) → Buf (Elt Ideal) ℓ)
    (h : Cert.Pre_KernelIdeal m) (c : Dev nD) : InRange (m ((c.tc : Thread nD τ).loc main_arg11)) :=
  fun i => range_of_fn _ _ _ _ _ _ _ _ _ _ _ _ (h c) i

/-! ## A typed reference at its own buffer's type carries values unchanged -/

open Idealize.ShloMosaic.StableHlo in
theorem ofBuf_self {sig : RefSig} {Val : EltTy → Type} (r : Ref sig .tc) (h : r.ty = r.ty) (d u) (v : r.ty.Contents Val) :
    (⟨r, h, d, u⟩ : TRef sig r.ty).ofBuf v = v := rfl

open Idealize.ShloMosaic.StableHlo in
theorem toBuf_self {sig : RefSig} {Val : EltTy → Type} (r : Ref sig .tc) (h : r.ty = r.ty) (d u) (v : r.ty.Contents Val) :
    (⟨r, h, d, u⟩ : TRef sig r.ty).toBuf v = v := rfl

/-- the printed take of the rows d of x: the bare gather, then every row whose start index is outside [0, 49999]
    replaced by the fill word -/
abbrev takeTerm (x : FVec Ideal S50000x32 .f32) (d : IVec S1600000 32) : S1600000x32.Idx → EReal :=
  select (broadcastInDim S1600000x32 ![0] bcast_S1600000_S1600000x32_0
      (Host.reduce IntOp.andi
        (andi (cmpi .sge (wrapIdx d) (broadcastInDim S1600000x1 ![] bcast_S_S1600000x1 (constantI S_ 32 0#32)))
          (cmpi .sle (wrapIdx d) (broadcastInDim S1600000x1 ![0, 1] bcast_S1x1_S1600000x1_0_1
            (broadcastInDim S1x1 ![1] bcast_S1_S1x1_1 (constantI S1 32 49999#32)))))
        (constantI S_ 1 1#1) reducesTo_S1600000x1_S1600000_d1 h_S_))
    (Host.gather gather_S50000x32_S1600000x1_S1600000x32_1_0_n_n_0_1_132 x (wrapIdx d))
    (broadcastInDim S1600000x32 ![] bcast_S_S1600000x32 (constant (F := Ideal) S_ .f32 0x7FC00000#32))

/-- over node numbers the printed take is the bare gather -/
theorem takeTerm_eq (x : FVec Ideal S50000x32 .f32) (d : IVec S1600000 32) (hd : RowInRange d) :
    takeTerm x d = Host.gather gather_S50000x32_S1600000x1_S1600000x32_1_0_n_n_0_1_132 x (wrapIdx d) :=
  take_eq_gather d hd _ _

/-! ## The two stretches, over any contents before them -/

/-- what the first take's stretch leaves in its result -/
theorem take0_result (V : Valuation τ sig (Elt Ideal)) :
    (StableHlo.after (hostOps0_1 (F := Ideal)) V (Proc.devRef .tc main_v4) : S1600000x32.Idx → EReal)
      = takeTerm (V (Proc.devRef .tc main_arg0)) (V (Proc.devRef .tc main_v3)) := by
  after_results
  simp only [Cert.LibTRef.ofBuf_toBuf]
  rw [toBuf_self main_v4, ofBuf_self main_v3, ofBuf_self main_arg0]

/-- what the second take's stretch leaves in its result -/
theorem take1_result (V : Valuation τ sig (Elt Ideal)) :
    (StableHlo.after (hostOps0_2 (F := Ideal)) V (Proc.devRef .tc main_v5) : S1600000x32.Idx → EReal)
      = takeTerm (V (Proc.devRef .tc main_arg0)) (V (Proc.devRef .tc main_v1)) := by
  after_results
  simp only [Cert.LibTRef.ofBuf_toBuf]
  rw [toBuf_self main_v5, ofBuf_self main_v1, ofBuf_self main_arg0]

/-! ## The fold read at the two results -/

/-- a buffer no operation of a stretch writes keeps its contents: each operation's one result is another reference -/
macro "skip_stretch " ops:ident : tactic =>
  `(tactic| (refine StableHlo.after_of_forall_not_mem _ _ (List.forall_iff_forall_mem.mp ?_)
             simp only [$ops:ident, List.flatten_cons, List.flatten_nil, List.append_nil, List.cons_append, List.nil_append,
               List.Forall, StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg) (c : Dev nD)

/-- the node rows are the launch contents when the first take starts -/
theorem W1_main_arg0 : W1 (F := Ideal) m ρ c (Proc.devRef .tc main_arg0) = m ((c : Thread nD τ).loc main_arg0) := by
  have e : W1 (F := Ideal) m ρ c (Proc.devRef .tc main_arg0) = W0 m ρ c (Proc.devRef .tc main_arg0) := by
    skip_stretch hostOps0
  exact e.trans rfl

/-- the dst row when the first take starts -/
theorem W1_main_v3 : (W1 (F := Ideal) m ρ c (Proc.devRef .tc main_v3) : IVec S1600000 32)
    = edgeRow 1 (m ((c : Thread nD τ).loc main_arg11)) slices_S2x1600000_S1x1600000_1_0 := by
  show StableHlo.after (hostOps0 (F := Ideal)) _ (Proc.devRef .tc main_v3) = _
  after_results
  rfl

/-- the src row when the first take starts -/
theorem W1_main_v1 : (W1 (F := Ideal) m ρ c (Proc.devRef .tc main_v1) : IVec S1600000 32)
    = edgeRow 0 (m ((c : Thread nD τ).loc main_arg11)) slices_S2x1600000_S1x1600000_0_0 := by
  show StableHlo.after (hostOps0 (F := Ideal)) _ (Proc.devRef .tc main_v1) = _
  after_results
  rfl

/-- the first take leaves the node rows as they were -/
theorem W2_main_arg0 : W2 (F := Ideal) m ρ c (Proc.devRef .tc main_arg0) = m ((c : Thread nD τ).loc main_arg0) := by
  have e : W2 (F := Ideal) m ρ c (Proc.devRef .tc main_arg0) = W1 m ρ c (Proc.devRef .tc main_arg0) := by
    skip_stretch hostOps0_1
  exact e.trans (W1_main_arg0 m ρ c)

/-- the first take leaves the src row as it was -/
theorem W2_main_v1 : (W2 (F := Ideal) m ρ c (Proc.devRef .tc main_v1) : IVec S1600000 32)
    = edgeRow 0 (m ((c : Thread nD τ).loc main_arg11)) slices_S2x1600000_S1x1600000_0_0 := by
  have e : W2 (F := Ideal) m ρ c (Proc.devRef .tc main_v1) = W1 m ρ c (Proc.devRef .tc main_v1) := by
    skip_stretch hostOps0_1
  exact e.trans (W1_main_v1 m ρ c)

/-- x_i: at the first region's entry the first take's result is the bare gather of the node rows at the dst row -/
theorem V4_main_v4 (hr : InRange (m ((c : Thread nD τ).loc main_arg11))) :
    (Gen.V4 (F := Ideal) m ρ c main_v4 : S1600000x32.Idx → EReal)
      = Host.gather gather_S50000x32_S1600000x1_S1600000x32_1_0_n_n_0_1_132 (m ((c : Thread nD τ).loc main_arg0))
          (wrapIdx (edgeRow 1 (m ((c : Thread nD τ).loc main_arg11)) slices_S2x1600000_S1x1600000_1_0)) := by
  have e43 : W4 (F := Ideal) m ρ c (Proc.devRef .tc main_v4) = W3 m ρ c (Proc.devRef .tc main_v4) := by
    skip_stretch hostOps0_3
  have e32 : W3 (F := Ideal) m ρ c (Proc.devRef .tc main_v4) = W2 m ρ c (Proc.devRef .tc main_v4) := by
    skip_stretch hostOps0_2
  have e2 := take0_result (W1 (F := Ideal) m ρ c)
  rw [W1_main_arg0 m ρ c, W1_main_v3 m ρ c] at e2
  exact (e43.trans (e32.trans e2)).trans (takeTerm_eq _ _ (edgeRow_inRange _ _ _ hr))

/-- x_j: at the first region's entry the second take's result is the bare gather of the node rows at the src row -/
theorem V4_main_v5 (hr : InRange (m ((c : Thread nD τ).loc main_arg11))) :
    (Gen.V4 (F := Ideal) m ρ c main_v5 : S1600000x32.Idx → EReal)
      = Host.gather gather_S50000x32_S1600000x1_S1600000x32_1_0_n_n_0_1_132 (m ((c : Thread nD τ).loc main_arg0))
          (wrapIdx (edgeRow 0 (m ((c : Thread nD τ).loc main_arg11)) slices_S2x1600000_S1x1600000_0_0)) := by
  have e43 : W4 (F := Ideal) m ρ c (Proc.devRef .tc main_v5) = W3 m ρ c (Proc.devRef .tc main_v5) := by
    skip_stretch hostOps0_3
  have e3 := take1_result (W2 (F := Ideal) m ρ c)
  rw [W2_main_arg0 m ρ c, W2_main_v1 m ρ c] at e3
  exact (e43.trans e3).trans (takeTerm_eq _ _ (edgeRow_inRange _ _ _ hr))

end Cert.KernelIdeal.HostTake

end
-- ==== Proof.lean ====
/-
  The message-passing layer computed by two tiled grids equals the reference computed with stacked operands.

  Both programs compute, for every edge, a two-layer network of the target node's features, the source node's
  features and the edge's features; sum the edges' messages into their target nodes; and compute, for every node, a
  two-layer network of its features and its summed messages. The kernel multiplies each part of a stacked row by
  its own block of rows of the first-layer matrix and adds the partial products; the reference stacks the parts and
  multiplies once. On the extended reals these agree by associativity and commutativity of addition alone
  (Proof/RefValue.lean), so no input needs to be finite. The summation into target nodes is the same operation on
  both sides and is never opened.

  The one place where the programs differ as printed is the row gather: the kernel replaces a row whose node number
  lies outside [0, 50000) by a fill word, the reference reads a clamped row. Under the precondition that every
  entry of the edge list is a node number the replacement never happens (Proof/HostTake.lean).

  The kernel's result is read off its run grid by grid (Proof/Region0Value.lean, Proof/Region1Value.lean for what
  each grid writes; Proof/KernelValue.lean for what each grid finds; Proof/KernelResult.lean for the composition;
  Proof/KernelRun.lean for the run that keeps the result buffer in its post).
-/
import proofs.«427838_j63780264346297_4_alg».proof.Defs
import proofs.«427838_j63780264346297_4_alg».proof.Proof.Gen.Kernel
import proofs.«427838_j63780264346297_4_alg».proof.Proof.Gen.Kernel.Frame
import proofs.«427838_j63780264346297_4_alg».proof.Proof.Gen.KernelIdeal
import proofs.«427838_j63780264346297_4_alg».proof.Proof.Gen.KernelIdeal.Frame
import proofs.«427838_j63780264346297_4_alg».proof.Proof.Gen.ReferenceIdeal
import proofs.«427838_j63780264346297_4_alg».proof.Proof.Gen.ReferenceIdeal.Run
import proofs.«427838_j63780264346297_4_alg».proof.Proof.Gen.Pre_finite_inputs
import proofs.«427838_j63780264346297_4_alg».proof.Proof.KernelRun
import proofs.«427838_j63780264346297_4_alg».proof.Proof.KernelResult
import proofs.«427838_j63780264346297_4_alg».proof.Proof.RefValue
import proofs.«427838_j63780264346297_4_alg».proof.Proof.HostTake

set_option maxRecDepth 16384

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no grid: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## Equal results -/

section
open Cert.KernelIdeal Cert.KernelIdeal.Gen Cert.KernelIdeal.HostTake

/-- The kernel's result when every entry of the edge list is a node number: the update network of the node
    features and the summed messages, the messages computed from the node features gathered at the edge list's
    target row and source row. -/
def kernelOut (m : (ℓ : Loc nD τ sig) → Buf (Elt Ideal) ℓ) (c : Dev nD) : FVec Ideal S50000x32 .f32 :=
  Cert.KernelIdeal.Result.result m c
    (Host.gather gather_S50000x32_S1600000x1_S1600000x32_1_0_n_n_0_1_132 (m ((c : Thread nD τ).loc main_arg0))
      (wrapIdx (edgeRow 1 (m ((c : Thread nD τ).loc main_arg11)) slices_S2x1600000_S1x1600000_1_0)))
    (Host.gather gather_S50000x32_S1600000x1_S1600000x32_1_0_n_n_0_1_132 (m ((c : Thread nD τ).loc main_arg0))
      (wrapIdx (edgeRow 0 (m ((c : Thread nD τ).loc main_arg11)) slices_S2x1600000_S1x1600000_0_0)))

end

open Cert.KernelIdeal.HostTake in
/-- From memories that agree on the arguments, with every entry of the edge list a node number, both programs end
    with the update network of the node features and the summed messages in their result buffers. -/
theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg11)) :=
    fun c => range_of_pre m hpre c
  refine ⟨fun c => kernelOut m c, ?_, ?_⟩
  · refine (θ_run Cert.KernelIdeal.defs _ _).mono (fun r h c => ?_) (Cert.KernelIdeal.Run.run (F := Ideal) m ρ)
    exact ⟨(h c).1.trans (Cert.KernelIdeal.Result.W7_v19 m ρ c _ _ (V4_main_v4 m ρ c (hr c)) (V4_main_v5 m ρ c (hr c))), (h c).2⟩
  · refine (θ_run Cert.ReferenceIdeal.defs _ _).mono (fun r h c => ⟨(h c).1.trans ?_, (h c).2⟩)
      (Cert.ReferenceIdeal.Value.run (F := Ideal) m' ρ')
    rw [(hagree c).1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    rw [Cert.RefNet.refMsg_eq 1600000 Cert.ReferenceIdeal.dot_S1600000x80_S80x64_S1600000x64_1_0_0_1_n_n rfl
      Cert.ReferenceIdeal.dot_S1600000x64_S64x32_S1600000x32_1_0_0_1_n_n rfl _ _ _ _ _ _ _ _ _ _ _ _ _
      (by decide) (by decide) (by decide) (by decide) (by decide)]
    exact Cert.RefNet.refUpd_eq 50000 Cert.ReferenceIdeal.dot_S50000x64_S64x64_S50000x64_1_0_0_1_n_n rfl
      Cert.ReferenceIdeal.dot_S50000x64_S64x32_S50000x32_1_0_0_1_n_n rfl _ _ _ _ _ _ _ _ _ _ _ _
      (by decide) (by decide) (by decide) (by decide)

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
